-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn_part1 {F : FTy → Type} [FloatOps F] (main_arg4 : FVec F S4096x4096 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096x4096 .f32 := Host.absf main_arg4
  let main_cst_6 : FVec F S_ .f32 := constant S_ .f32 0x7F800000#32
  let main_v20 : FVec F S4096x4096 .f32 := broadcastInDim S4096x4096 ![] bcast_S_S4096x4096 main_cst_6
  let main_v21 : IVec S4096x4096 1 := cmpf .olt main_v19 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v18 main_v22
  main_v23

def fn {F : FTy → Type} [FloatOps F] (main_arg0 : FVec F S8192x4096 .f32) (main_arg1 : FVec F S8192x4096 .f32) (main_arg2 : FVec F S4096x4096 .f32) (main_arg3 : FVec F S4096x4096 .f32) (main_arg4 : FVec F S4096x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_v13 main_v16
-- ==== Kernel.lean ====
abbrev S8192x4096 : Shape := ⟨2, ![8192, 4096]⟩
abbrev S4096x4096 : Shape := ⟨2, ![4096, 4096]⟩
abbrev S256x128 : Shape := ⟨2, ![256, 128]⟩
abbrev S4096x128 : Shape := ⟨2, ![4096, 128]⟩
abbrev S256x4096 : Shape := ⟨2, ![256, 4096]⟩

abbrev nBuf : Space → Nat
  | .hbm => 12
  | .vmem => 14
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S8192x4096, .bf16⟩
  | .hbm, ⟨6, _⟩ => ⟨S8192x4096, .bf16⟩
  | .hbm, ⟨7, _⟩ => ⟨S4096x4096, .bf16⟩
  | .hbm, ⟨8, _⟩ => ⟨S4096x4096, .bf16⟩
  | .hbm, ⟨9, _⟩ => ⟨S4096x4096, .bf16⟩
  | .hbm, ⟨10, _⟩ => ⟨S8192x4096, .f32⟩
  | .hbm, ⟨11, _⟩ => ⟨S8192x4096, .f32⟩
  | .local _ .vmem, ⟨0, _⟩ => ⟨S256x128, .bf16⟩
  | .local _ .vmem, ⟨1, _⟩ => ⟨S256x128, .bf16⟩
  | .local _ .vmem, ⟨2, _⟩ => ⟨S256x128, .bf16⟩
  | .local _ .vmem, ⟨3, _⟩ => ⟨S256x128, .bf16⟩
  | .local _ .vmem, ⟨4, _⟩ => ⟨S4096x128, .bf16⟩
  | .local _ .vmem, ⟨5, _⟩ => ⟨S4096x128, .bf16⟩
  | .local _ .vmem, ⟨6, _⟩ => ⟨S4096x128, .bf16⟩
  | .local _ .vmem, ⟨7, _⟩ => ⟨S4096x128, .bf16⟩
  | .local _ .vmem, ⟨8, _⟩ => ⟨S256x4096, .f32⟩
  | .local _ .vmem, ⟨9, _⟩ => ⟨S256x128, .f32⟩
  | .local _ .vmem, ⟨10, _⟩ => ⟨S256x128, .f32⟩
  | .local _ .vmem, ⟨11, _⟩ => ⟨S4096x128, .bf16⟩
  | .local _ .vmem, ⟨12, _⟩ => ⟨S4096x128, .bf16⟩
  | .local _ .vmem, ⟨13, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13

abbrev nD : Nat := 1
abbrev τ : Topo := Topo.v7x

variable {F : FTy → Type} [FloatOps F]

abbrev grid0 : Pipeline.Grid := ⟨2, ![32, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S256x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev grid1 : Pipeline.Grid := ⟨2, ![32, 32], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S256x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4096x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S256x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, false]

class Facts₀ : Prop where
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  shapeCasts_S256x4096_S256x4096 : S256x4096.ShapeCasts S256x4096
  dot_S256x128_S4096x128_S256x4096_1_1_0_0_n_n_wf : DotDims.WF S256x128 S4096x128 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x128.size a ≤ S8192x4096.size a
  hwx0_0 : ∀ i : grid0.Coords, EltTy.bits .bf16 = 32 ∨ (Rect.block (s := S8192x4096) S256x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S8192x4096.size a
  hwx0_1 : ∀ i : grid0.Coords, EltTy.bits .bf16 = 32 ∨ (Rect.block (s := S8192x4096) S256x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S4096x4096.size a
  hwx0_2 : ∀ i : grid0.Coords, EltTy.bits .bf16 = 32 ∨ (Rect.block (s := S4096x4096) S4096x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S4096x4096.size a
  hwx0_3 : ∀ i : grid0.Coords, EltTy.bits .bf16 = 32 ∨ (Rect.block (s := S4096x4096) S4096x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x4096.size a ≤ S8192x4096.size a
  hwx0_4 : ∀ i : grid0.Coords, EltTy.bits .f32 = 32 ∨ (Rect.block (s := S8192x4096) S256x4096.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x128.size a ≤ S8192x4096.size a
  hwx1_0 : ∀ i : grid1.Coords, EltTy.bits .f32 = 32 ∨ (Rect.block (s := S8192x4096) S256x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S4096x4096.size a
  hwx1_1 : ∀ i : grid1.Coords, EltTy.bits .bf16 = 32 ∨ (Rect.block (s := S4096x4096) S4096x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x4096.size a ≤ S8192x4096.size a
  hwx1_2 : ∀ i : grid1.Coords, EltTy.bits .f32 = 32 ∨ (Rect.block (s := S8192x4096) S256x4096.size (cc1_transform_2 i) (hinb1_2 i)).WholeWords (EltTy.packing .f32)

variable [Facts₀]

def dot_S256x128_S4096x128_S256x4096_1_1_0_0_n_n : DotDims S256x128 S4096x128 S256x4096 where
  lhsContracting := [1]
  rhsContracting := [1]
  lhsNonContracting := [0]
  rhsNonContracting := [0]
  lhsBatch := []
  rhsBatch := []
  wf := dot_S256x128_S4096x128_S256x4096_1_1_0_0_n_n_wf

abbrev win0_0 : Pipeline.Window sig grid0 :=
  Pipeline.Window.ofSpec (Memref.whole main_v0) S256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4096x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S4096x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S256x4096.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v5) S256x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S4096x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S256x4096.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S_ : Shape := ⟨0, ![]⟩

abbrev nBuf : Space → Nat
  | .hbm => 56
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S8192x4096, .f32⟩
  | .hbm, ⟨18, _⟩ => ⟨S4096x4096, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S_, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S8192x4096, .f32⟩
  | .hbm, ⟨31, _⟩ => ⟨S8192x4096, .f32⟩
  | .hbm, ⟨32, _⟩ => ⟨S8192x4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S8192x4096, .f32⟩
  | .hbm, ⟨37, _⟩ => ⟨S8192x4096, .f32⟩
  | .hbm, ⟨38, _⟩ => ⟨S_, .f32⟩
  | .hbm, ⟨39, _⟩ => ⟨S8192x4096, .f32⟩
  | .hbm, ⟨40, _⟩ => ⟨S8192x4096, .f32⟩
  | .hbm, ⟨41, _⟩ => ⟨S8192x4096, .f32⟩
  | .hbm, ⟨42, _⟩ => ⟨S8192x4096, .f32⟩
  | .hbm, ⟨43, _⟩ => ⟨S4096x4096, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S4096x4096, .f32⟩
  | .hbm, ⟨48, _⟩ => ⟨S4096x4096, .f32⟩
  | .hbm, ⟨49, _⟩ => ⟨S_, .f32⟩
  | .hbm, ⟨50, _⟩ => ⟨S4096x4096, .f32⟩
  | .hbm, ⟨51, _⟩ => ⟨S4096x4096, .f32⟩
  | .hbm, ⟨52, _⟩ => ⟨S4096x4096, .f32⟩
  | .hbm, ⟨53, _⟩ => ⟨S4096x4096, .f32⟩
  | .hbm, ⟨54, _⟩ => ⟨S4096x4096, .f32⟩
  | .hbm, ⟨55, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_cst_0 : Ref sig .tc := ⟨.hbm, 7, rfl⟩
abbrev main_call1_v0 : Ref sig .tc := ⟨.hbm, 8, rfl⟩
abbrev main_call1_v1 : Ref sig .tc := ⟨.hbm, 9, rfl⟩
abbrev main_call1_v2 : Ref sig .tc := ⟨.hbm, 10, rfl⟩
abbrev main_call1_v3 : Ref sig .tc := ⟨.hbm, 11, rfl⟩
abbrev main_call1_v4 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_cst_2 : Ref sig .tc := ⟨.hbm, 20, rfl⟩
abbrev main_call3_v0 : Ref sig .tc := ⟨.hbm, 21, rfl⟩
abbrev main_call3_v1 : Ref sig .tc := ⟨.hbm, 22, rfl⟩
abbrev main_call3_v2 : Ref sig .tc := ⟨.hbm, 23, rfl⟩
abbrev main_call3_v3 : Ref sig .tc := ⟨.hbm, 24, rfl⟩
abbrev main_call3_v4 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_3 : Ref sig .tc := ⟨.hbm, 33, rfl⟩
abbrev main_cst_4 : Ref sig .tc := ⟨.hbm, 34, rfl⟩
abbrev main_call5_v0 : Ref sig .tc := ⟨.hbm, 35, rfl⟩
abbrev main_call5_v1 : Ref sig .tc := ⟨.hbm, 36, rfl⟩
abbrev main_call5_v2 : Ref sig .tc := ⟨.hbm, 37, rfl⟩
abbrev main_call5_v3 : Ref sig .tc := ⟨.hbm, 38, rfl⟩
abbrev main_call5_v4 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_cst_5 : Ref sig .tc := ⟨.hbm, 44, rfl⟩
abbrev main_cst_6 : Ref sig .tc := ⟨.hbm, 45, rfl⟩
abbrev main_call7_v0 : Ref sig .tc := ⟨.hbm, 46, rfl⟩
abbrev main_call7_v1 : Ref sig .tc := ⟨.hbm, 47, rfl⟩
abbrev main_call7_v2 : Ref sig .tc := ⟨.hbm, 48, rfl⟩
abbrev main_call7_v3 : Ref sig .tc := ⟨.hbm, 49, rfl⟩
abbrev main_call7_v4 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  transposes_S4096x4096_S4096x4096_1_0 : S4096x4096.Transposes [1, 0] S4096x4096
  bcast_S_S8192x4096 : S_.BroadcastsInDim S8192x4096 (![] : Fin 0 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Spec.lean ====
/-
  The ternary recurrent step as ONE function of its five argument arrays, over the extended reals.

  With q(w) = clip(round-half-even(w), -1, 1):
    pre[r, j]    = sum_k x[r, k] * q(Wi[j, k])  +  sum_k h[r, k] * q(Wh[j, k])
    hidden[r, j] = q(pre[r, j])
    out[r, j]    = sum_k hidden[r, k] * q(Wo[j, k])
  Both programs compute these two arrays. The kernel cuts each sum over k into 32 blocks of 128 columns and
  adds the blocks one after the other into a zeroed accumulator; over the extended reals addition is
  associative and commutative with neutral element 0, so that is the same sum. The reference spells the
  quantizer in its straight-through form w + (q(w) - w), which is q(w) as soon as w is a real number
  (at an infinity the difference is not defined the way the cancellation needs): the reason the claim
  is made of finite inputs only.
-/
import Idealize.ShloMosaic.PureOps.Ideal
import Idealize.ShloMosaic.Lib.ValueIdx

noncomputable section

open scoped BigOperators

namespace Cert.Tern

open Idealize.ShloMosaic Idealize.ShloMosaic.ValueIdx

/-- [batch, features]. -/
abbrev SB : Shape := ⟨2, ![8192, 4096]⟩
/-- [out features, in features]. -/
abbrev SW : Shape := ⟨2, ![4096, 4096]⟩

/-! ## The three literals the programs spell -/

/-- The pattern of `1.0` denotes the real 1. -/
theorem ofBits_one : Ideal.ofBits .f32 0x3F800000#32 = ((1 : ℝ) : EReal) := by
  simp [Ideal.ofBits, Ideal.ieee, -EReal.coe_mul]; norm_num

/-- The pattern of `-1.0` denotes the real -1. -/
theorem ofBits_neg_one : Ideal.ofBits .f32 0xBF800000#32 = ((-1 : ℝ) : EReal) := by
  simp [Ideal.ofBits, Ideal.ieee, -EReal.coe_mul]; norm_num

/-- The pattern of `+inf` denotes the top element. -/
theorem ofBits_inf : Ideal.ofBits .f32 0x7F800000#32 = (⊤ : EReal) := by
  simp [Ideal.ofBits, Ideal.ieee]

/-! ## The quantizer -/

/-- Round to the nearest integer, ties to even, then clip to [-1, 1]. -/
def tern (w : EReal) : EReal :=
  min (Ideal.ofBits .f32 0x3F800000#32) (max (Ideal.ofBits .f32 0xBF800000#32) (Ideal.liftRound Ideal.roundHalfEven w))

/-- An array all of whose entries are real numbers. -/
def AllReal {ι : Type} (f : ι → EReal) : Prop := ∀ i, ∃ r : ℝ, f i = (r : EReal)

/-- The quantizer's value lies in [-1, 1], so it is a real number whatever its argument. -/
theorem tern_real (w : EReal) : ∃ q : ℝ, tern w = (q : EReal) := by
  have hle : tern w ≤ ((1 : ℝ) : EReal) := by
    unfold tern; rw [ofBits_one]; exact min_le_left _ _
  have hge : ((-1 : ℝ) : EReal) ≤ tern w := by
    unfold tern; rw [ofBits_one, ofBits_neg_one]
    exact le_min (by exact_mod_cast (by norm_num : (-1 : ℝ) ≤ 1)) (le_max_left _ _)
  have hne_top : tern w ≠ ⊤ := fun h => by rw [h] at hle; exact EReal.coe_ne_top 1 (top_le_iff.mp hle)
  have hne_bot : tern w ≠ ⊥ := fun h => by rw [h] at hge; exact EReal.coe_ne_bot (-1) (le_bot_iff.mp hge)
  exact ⟨(tern w).toReal, (EReal.coe_toReal hne_top hne_bot).symm⟩

/-- The straight-through form of the quantizer is the quantizer at a real argument. -/
theorem ste_eq (w : EReal) (hw : ∃ r : ℝ, w = (r : EReal)) : w + (tern w - w) = tern w := by
  obtain ⟨r, rfl⟩ := hw
  obtain ⟨q, hq⟩ := tern_real (r : EReal)
  rw [hq, ← EReal.coe_sub, ← EReal.coe_add]
  congr 1; ring

/-! ## Finite sums of real numbers -/

/-- A finite sum of real numbers, taken in the extended reals, is the real sum. -/
theorem coe_sum {ι : Type} (s : Finset ι) (g : ι → ℝ) :
    ∑ k ∈ s, ((g k : ℝ) : EReal) = ((∑ k ∈ s, g k : ℝ) : EReal) := by
  classical
  induction s using Finset.induction_on with
  | empty => simp
  | insert a s ha ih => rw [Finset.sum_insert ha, Finset.sum_insert ha, ih, EReal.coe_add]

/-- A finite sum of products of a real array's entries with quantized weights is a real number. -/
theorem sum_mul_tern_real {ι : Type} [Fintype ι] (a : ι → EReal) (ha : AllReal a) (w : ι → EReal) :
    ∃ r : ℝ, ∑ k, a k * tern (w k) = (r : EReal) := by
  choose ra hra using ha
  choose q hq using fun k => tern_real (w k)
  refine ⟨∑ k, ra k * q k, ?_⟩
  rw [← coe_sum]
  exact Finset.sum_congr rfl fun k _ => by rw [hra k, hq k, EReal.coe_mul]

/-! ## The two result arrays -/

/-- The pre-activation at row `r`, feature `j`. -/
def preAct (x h : SB.Idx → EReal) (wi wh : SW.Idx → EReal) (r : Fin 8192) (j : Fin 4096) : EReal :=
  (∑ k : Fin 4096, x (ix2 r k) * tern (wi (ix2 j k))) + ∑ k : Fin 4096, h (ix2 r k) * tern (wh (ix2 j k))

/-- The new hidden state: the quantized pre-activation. -/
def hidden (x h : SB.Idx → EReal) (wi wh : SW.Idx → EReal) : SB.Idx → EReal :=
  fun i => tern (preAct x h wi wh (i 0) (i 1))

/-- The output layer applied to ANY hidden array. -/
def outOf (hn : SB.Idx → EReal) (wo : SW.Idx → EReal) : SB.Idx → EReal :=
  fun i => ∑ k : Fin 4096, hn (ix2 (i 0) k) * tern (wo (ix2 (i 1) k))

/-- The output of the step. -/
def out (x h : SB.Idx → EReal) (wi wh wo : SW.Idx → EReal) : SB.Idx → EReal :=
  outOf (hidden x h wi wh) wo

/-- The pre-activation of real inputs is a real number. -/
theorem preAct_real (x h : SB.Idx → EReal) (hx : AllReal x) (hh : AllReal h) (wi wh : SW.Idx → EReal)
    (r : Fin 8192) (j : Fin 4096) : ∃ p : ℝ, preAct x h wi wh r j = (p : EReal) := by
  obtain ⟨a, ha⟩ := sum_mul_tern_real (fun k : Fin 4096 => x (ix2 r k)) (fun k => hx _) (fun k => wi (ix2 j k))
  obtain ⟨b, hb⟩ := sum_mul_tern_real (fun k : Fin 4096 => h (ix2 r k)) (fun k => hh _) (fun k => wh (ix2 j k))
  exact ⟨a + b, by unfold preAct; rw [ha, hb, EReal.coe_add]⟩

/-! ## The contracted axis in 32 blocks of 128 columns -/

/-- Column `kk` of column block `s` (read modulo 32, so that every natural names a block). -/
def kcol (s : ℕ) (kk : Fin 128) : Fin 4096 := ⟨128 * (s % 32) + kk.val, by have := kk.isLt; omega⟩

/-- Row `p` of row block `b` (read modulo 32). -/
def brow (b : ℕ) (p : Fin 256) : Fin 8192 := ⟨256 * (b % 32) + p.val, by have := p.isLt; omega⟩

/-- A sum over the 4096 columns is the sum over the 32 blocks of the sums over each block's 128 columns. -/
theorem sum_kblocks {β : Type} [AddCommMonoid β] (f : Fin 4096 → β) :
    ∑ k : Fin 4096, f k = ∑ s ∈ Finset.range 32, ∑ kk : Fin 128, f (kcol s kk) := by
  rw [Finset.sum_range (fun s => ∑ kk : Fin 128, f (kcol s kk)), ← Fintype.sum_prod_type']
  refine (Fintype.sum_equiv (finProdFinEquiv (m := 32) (n := 128)).symm _ _ fun k => ?_)
  congr 1
  apply Fin.ext
  simp only [kcol, finProdFinEquiv, Equiv.coe_fn_symm_mk, Fin.divNat, Fin.modNat]
  have := k.isLt
  show k.val = 128 * (k.val / 128 % 32) + k.val % 128
  omega

end Cert.Tern

end
-- ==== Proof.MatmulAt.lean ====
/-
  The kernels' one matrix product read at an index: a [256, 128] block times the transpose of a [4096, 128]
  block, into a zero accumulator, at row p and column q is the sum over the 128 shared columns kk of
  lhs[p, kk] * rhs[q, kk] — both operands are contracted along their second axis.
-/
import proofs.«163406_j15015205666917_1_alg».proof.KernelIdeal
import proofs.«163406_j15015205666917_1_alg».proof.Proof.Gen.KernelIdeal
import Idealize.ShloMosaic.Lib.ValueIdx
import Idealize.ShloMosaic.PureOps.Ideal.Laws

noncomputable section

open Idealize.ShloMosaic Idealize.ShloMosaic.ValueIdx

namespace Cert.KernelIdeal.MatmulAt

open Cert.KernelIdeal Cert.KernelIdeal.Gen

/-- The left operand is read at the output's row … -/
theorem lhs_0 (i : S256x4096.Idx) (q : dot_S256x128_S4096x128_S256x4096_1_1_0_0_n_n.contr.Idx) :
    (dot_S256x128_S4096x128_S256x4096_1_1_0_0_n_n.lhsIdx i q 0).val = (i 0).val := by
  unfold DotDims.lhsIdx
  rw [dif_neg (show ¬(0 : Fin S256x128.rank) ∈ dot_S256x128_S4096x128_S256x4096_1_1_0_0_n_n.lhsBatch by decide), dif_pos (show (0 : Fin S256x128.rank) ∈ dot_S256x128_S4096x128_S256x4096_1_1_0_0_n_n.lhsNonContracting by decide)]
  rfl
/-- … and the contracted column; -/
theorem lhs_1 (i : S256x4096.Idx) (q : dot_S256x128_S4096x128_S256x4096_1_1_0_0_n_n.contr.Idx) :
    (dot_S256x128_S4096x128_S256x4096_1_1_0_0_n_n.lhsIdx i q 1).val = (q ⟨0, by decide⟩).val :=
  dot_S256x128_S4096x128_S256x4096_1_1_0_0_n_n.lhsIdx_val_of_single rfl i q
/-- the right operand at the output's column (its own row) … -/
theorem rhs_0 (i : S256x4096.Idx) (q : dot_S256x128_S4096x128_S256x4096_1_1_0_0_n_n.contr.Idx) :
    (dot_S256x128_S4096x128_S256x4096_1_1_0_0_n_n.rhsIdx i q 0).val = (i 1).val := by
  unfold DotDims.rhsIdx
  rw [dif_neg (show ¬(0 : Fin S4096x128.rank) ∈ dot_S256x128_S4096x128_S256x4096_1_1_0_0_n_n.rhsBatch by decide), dif_pos (show (0 : Fin S4096x128.rank) ∈ dot_S256x128_S4096x128_S256x4096_1_1_0_0_n_n.rhsNonContracting by decide)]
  rfl
/-- … and the contracted column. -/
theorem rhs_1 (i : S256x4096.Idx) (q : dot_S256x128_S4096x128_S256x4096_1_1_0_0_n_n.contr.Idx) :
    (dot_S256x128_S4096x128_S256x4096_1_1_0_0_n_n.rhsIdx i q 1).val = (q ⟨0, by decide⟩).val :=
  dot_S256x128_S4096x128_S256x4096_1_1_0_0_n_n.rhsIdx_val_of_single rfl i q

/-- The product into the zero accumulator at (p, q): the sum over the shared columns. -/
theorem matmul_zero_at {φ₁ φ₂ : FTy} (lhs : FVec Ideal S256x128 φ₁) (rhs : FVec Ideal S4096x128 φ₂) (p : Fin 256) (q : Fin 4096) :
    matmul (F := Ideal) dot_S256x128_S4096x128_S256x4096_1_1_0_0_n_n none lhs rhs (constant S256x4096 .f32 0x00000000#32) (ix2 p q)
      = ∑ kk : Fin 128, lhs (ix2 p kk) * rhs (ix2 q kk) := by
  show FloatOps.matmul dot_S256x128_S4096x128_S256x4096_1_1_0_0_n_n none lhs rhs (constant S256x4096 .f32 0x00000000#32) (ix2 p q) = _
  rw [Ideal.matmul_constant_zero_apply, ← Equiv.sum_comp (contrEquiv1 dot_S256x128_S4096x128_S256x4096_1_1_0_0_n_n 128 rfl rfl).symm]
  refine Finset.sum_congr rfl fun k _ => ?_
  have hk := contrEquiv1_symm_val dot_S256x128_S4096x128_S256x4096_1_1_0_0_n_n 128 rfl rfl k
  have el : dot_S256x128_S4096x128_S256x4096_1_1_0_0_n_n.lhsIdx (ix2 p q) ((contrEquiv1 dot_S256x128_S4096x128_S256x4096_1_1_0_0_n_n 128 rfl rfl).symm k) = ix2 p k := funext fun a => Fin.ext (by
    match a with
    | ⟨0, _⟩ => exact lhs_0 _ _
    | ⟨1, _⟩ => exact (lhs_1 _ _).trans hk)
  have er : dot_S256x128_S4096x128_S256x4096_1_1_0_0_n_n.rhsIdx (ix2 p q) ((contrEquiv1 dot_S256x128_S4096x128_S256x4096_1_1_0_0_n_n 128 rfl rfl).symm k) = ix2 q k := funext fun a => Fin.ext (by
    match a with
    | ⟨0, _⟩ => exact rhs_0 _ _
    | ⟨1, _⟩ => exact (rhs_1 _ _).trans hk)
  rw [el, er]

end Cert.KernelIdeal.MatmulAt

end
-- ==== Proof.StepValue.lean ====
/-
  The first kernel region (the fused recurrent step), read as a value: whatever the arrays hold when the region is
  entered, its result array ends holding the quantized pre-activation of the four arrays its windows read.
-/
import proofs.«163406_j15015205666917_1_alg».proof.Proof.Spec
import proofs.«163406_j15015205666917_1_alg».proof.Proof.Gen.KernelIdeal.Frame
import proofs.«163406_j15015205666917_1_alg».proof.Proof.MatmulAt
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.StepValue

open Cert.KernelIdeal Cert.KernelIdeal.Gen

/-! ## What each of the body's three control cases leaves in the output block -/

/-- The zero offsets of every load and store of the body. -/
theorem hz : (![0, 0] : Fin 2 → Nat) = fun _ => 0 := funext fun a => by fin_cases a <;> rfl

/-- A middle column block: the body leaves, in the output block holding `xo`, the accumulator `xo` plus this
    column block's two partial products; its one store covers the block and its loads read whole buffers. -/
theorem out_B {F : FTy → Type} [FloatOps F] (c : Dev nD) (i : grid0.Coords)
    (a2 : Memref sig .tc .vmem S256x128 .bf16) (h2 : a2.IsWhole) (a3 : Memref sig .tc .vmem S256x128 .bf16) (h3 : a3.IsWhole)
    (a4 : Memref sig .tc .vmem S4096x128 .bf16) (h4 : a4.IsWhole) (a5 : Memref sig .tc .vmem S4096x128 .bf16) (h5 : a5.IsWhole)
    (a6 : Memref sig .tc .vmem S256x4096 .f32) (h6 : a6.IsWhole)
    (hc0 : ¬cond0_0 i) (hc1 : ¬cond0_1 i) (x0 x1 : Vec F S256x128 .bf16) (x2 x3 : Vec F S4096x128 .bf16) (xo : Vec F S256x4096 .f32) :
    out0_B_4 c i a2 h2 a3 h3 a4 h4 a5 h5 a6 h6 hc0 hc1 x0 x1 x2 x3 xo = k0_pay3 x2 x3 x0 x1 xo := by
  unfold out0_B_4
  rw [View.read_writes_eq_canon _ _ _ (cover0_B_4 c i a2 h2 a3 h3 a4 h4 a5 h5 a6 h6 hc0 hc1 x0 x1 x2 x3 xo)]
  unfold kernelRun0_B
  dsimp only
  sl_unfold_words
  rw [View.canon_unit_zero hz]
  simp only [View.readAt_eq_ld, h2.read_unread, h3.read_unread, h4.read_unread, h5.read_unread, h6.read_unread,
    View.ld_unit_zero (S := S256x128) hz, View.ld_unit_zero (S := S4096x128) hz, View.ld_unit_zero (S := S256x4096) hz]

/-- The first column block: the body stores the zero block, reads it back as the accumulator, and leaves the zero
    block plus this column block's two partial products. -/
theorem out_A {F : FTy → Type} [FloatOps F] (c : Dev nD) (i : grid0.Coords)
    (a2 : Memref sig .tc .vmem S256x128 .bf16) (h2 : a2.IsWhole) (a3 : Memref sig .tc .vmem S256x128 .bf16) (h3 : a3.IsWhole)
    (a4 : Memref sig .tc .vmem S4096x128 .bf16) (h4 : a4.IsWhole) (a5 : Memref sig .tc .vmem S4096x128 .bf16) (h5 : a5.IsWhole)
    (a6 : Memref sig .tc .vmem S256x4096 .f32) (h6 : a6.IsWhole)
    (hc0 : cond0_0 i) (hc1 : ¬cond0_1 i) (x0 x1 : Vec F S256x128 .bf16) (x2 x3 : Vec F S4096x128 .bf16) :
    out0_A_4 c i a2 h2 a3 h3 a4 h4 a5 h5 a6 h6 hc0 hc1 x0 x1 x2 x3 = k0_pay3 x2 x3 x0 x1 (k0_pay2 (F := F)) := by
  unfold out0_A_4
  rw [View.read_writes_eq_canon _ _ _ (cover0_A_4 c i a2 h2 a3 h3 a4 h4 a5 h5 a6 h6 hc0 hc1 x0 x1 x2 x3)]
  unfold kernelRun0_A
  dsimp only
  sl_unfold_words
  rw [View.canon_cons_unit_zero (S := S256x4096) hz, View.readCov_unit_zero (S := S256x4096) _ hz]
  simp only [View.readAt_eq_ld, h2.read_unread, h3.read_unread, h4.read_unread, h5.read_unread,
    View.ld_unit_zero (S := S256x128) hz, View.ld_unit_zero (S := S4096x128) hz]

/-- The last column block: the body adds this column block's two partial products to the accumulator `xo`, reads the
    sum back and leaves its quantization. -/
theorem out_C {F : FTy → Type} [FloatOps F] (c : Dev nD) (i : grid0.Coords)
    (a2 : Memref sig .tc .vmem S256x128 .bf16) (h2 : a2.IsWhole) (a3 : Memref sig .tc .vmem S256x128 .bf16) (h3 : a3.IsWhole)
    (a4 : Memref sig .tc .vmem S4096x128 .bf16) (h4 : a4.IsWhole) (a5 : Memref sig .tc .vmem S4096x128 .bf16) (h5 : a5.IsWhole)
    (a6 : Memref sig .tc .vmem S256x4096 .f32) (h6 : a6.IsWhole)
    (hc0 : ¬cond0_0 i) (hc1 : cond0_1 i) (x0 x1 : Vec F S256x128 .bf16) (x2 x3 : Vec F S4096x128 .bf16) (xo : Vec F S256x4096 .f32) :
    out0_C_4 c i a2 h2 a3 h3 a4 h4 a5 h5 a6 h6 hc0 hc1 x0 x1 x2 x3 xo = k0_pay1 (k0_pay3 x2 x3 x0 x1 xo) := by
  unfold out0_C_4
  rw [View.read_writes_eq_canon _ _ _ (cover0_C_4 c i a2 h2 a3 h3 a4 h4 a5 h5 a6 h6 hc0 hc1 x0 x1 x2 x3 xo)]
  unfold kernelRun0_C
  dsimp only
  sl_unfold_words
  rw [View.canon_cons_unit_zero (S := S256x4096) hz, View.readCov_unit_zero (S := S256x4096) _ hz]
  simp only [View.readAt_eq_ld, h2.read_unread, h3.read_unread, h4.read_unread, h5.read_unread, h6.read_unread,
    View.ld_unit_zero (S := S256x128) hz, View.ld_unit_zero (S := S4096x128) hz, View.ld_unit_zero (S := S256x4096) hz]

/-! ## The payloads at an index, over the extended reals -/

/-- The zero block holds 0 everywhere. -/
theorem pay2_at (i : S256x4096.Idx) : k0_pay2 (F := Ideal) i = 0 := by
  unfold k0_pay2
  exact Ideal.ofBits_zero_f32

/-- Rounding to the nearest integer, ties to even, then clipping to [-1, 1], entry by entry, is the quantizer. -/
theorem quant_at {s : Shape} (w : FVec Ideal s .f32) (i : s.Idx) :
    minimumf (broadcast s (FloatOps.ofBits (F := Ideal) .f32 0x3F800000#32))
      (maximumf (broadcast s (FloatOps.ofBits (F := Ideal) .f32 0xBF800000#32)) (roundeven w)) i
      = Cert.Tern.tern (w i) := rfl

/-- The final store quantizes the accumulator entry by entry. -/
theorem pay1_at (v : Vec Ideal S256x4096 .f32) (i : S256x4096.Idx) :
    k0_pay1 (F := Ideal) v i = Cert.Tern.tern (v i) := by
  unfold k0_pay1
  refine (quant_at _ i).trans ?_
  exact congrArg Cert.Tern.tern (congrFun (shapeCast_self v _) i)

/-- A weight block widened, quantized and narrowed again, at an entry: widening and narrowing are exact over the
    extended reals, so this is the quantized entry. -/
theorem qblock_at (w : Vec Ideal S4096x128 .bf16) (i : S4096x128.Idx) :
    (truncf .bf16
      (minimumf (broadcast S4096x128 (FloatOps.ofBits (F := Ideal) .f32 0x3F800000#32))
        (maximumf (broadcast S4096x128 (FloatOps.ofBits (F := Ideal) .f32 0xBF800000#32))
          (roundeven (extf .f32 (shapeCast S4096x128 w shapeCasts_S4096x128_S4096x128) bitsLt_bf16_f32))))
      bitsLt_bf16_f32 : FVec Ideal S4096x128 .bf16) i = Cert.Tern.tern (w i) := by
  refine (truncf_apply (ψ := .bf16) _ bitsLt_bf16_f32 i).trans ?_
  refine (quant_at _ i).trans ?_
  exact congrArg Cert.Tern.tern
    ((extf_apply (ψ := .f32) _ bitsLt_bf16_f32 i).trans (congrFun (shapeCast_self w _) i))

/-- The update at row `p`, feature `q`: the accumulator's entry plus the two sums, over the 128 columns of this
    column block, of an activation entry times the quantized weight entry of feature `q` at the same column. -/
theorem pay3_at (v3 v12 : Vec Ideal S4096x128 .bf16) (v21 v24 : Vec Ideal S256x128 .bf16) (v27 : Vec Ideal S256x4096 .f32)
    (p : Fin 256) (q : Fin 4096) :
    k0_pay3 (F := Ideal) v3 v12 v21 v24 v27 (ix2 p q)
      = v27 (ix2 p q) + ((∑ kk : Fin 128, v21 (ix2 p kk) * Cert.Tern.tern (v3 (ix2 q kk)))
          + ∑ kk : Fin 128, v24 (ix2 p kk) * Cert.Tern.tern (v12 (ix2 q kk))) := by
  unfold k0_pay3
  refine (addf_apply _ _ (ix2 p q)).trans ?_
  refine congrArg₂ (· + ·) (congrFun (shapeCast_self v27 _) (ix2 p q)) ?_
  refine (addf_apply _ _ (ix2 p q)).trans ?_
  refine congrArg₂ (· + ·) ?_ ?_
  · refine (Cert.KernelIdeal.MatmulAt.matmul_zero_at _ _ p q).trans ?_
    refine Finset.sum_congr rfl fun kk _ => ?_
    exact congrArg₂ (· * ·) (congrFun (shapeCast_self v21 _) (ix2 p kk)) (qblock_at v3 (ix2 q kk))
  · refine (Cert.KernelIdeal.MatmulAt.matmul_zero_at _ _ p q).trans ?_
    refine Finset.sum_congr rfl fun kk _ => ?_
    exact congrArg₂ (· * ·) (congrFun (shapeCast_self v24 _) (ix2 p kk)) (qblock_at v12 (ix2 q kk))

variable (V : (c : Dev nD) → (b : Ref sig .tc) → Buf (Elt Ideal) ((c : Thread nD τ).loc b))

/-- The four arrays behind the input windows, as the region finds them, at their literal index types. -/
abbrev xarr (c : Dev nD) : Cert.Tern.SB.Idx → EReal := V c main_v0
abbrev harr (c : Dev nD) : Cert.Tern.SB.Idx → EReal := V c main_v1
abbrev wiarr (c : Dev nD) : Cert.Tern.SW.Idx → EReal := V c main_v2
abbrev wharr (c : Dev nD) : Cert.Tern.SW.Idx → EReal := V c main_v3

/-! ## Where the windows sit: block indices over the grid, and the input blocks read off their arrays -/

/-- The activation block of `x` at point `t` is block (t / 32, t % 32). -/
theorem idx_x : ∀ t : Fin cfg0.N, win0_0.index t 0 = t.val / 32 ∧ win0_0.index t 1 = t.val % 32 :=
  (by decide +kernel : ∀ t : Fin grid0.N, win0_0.index t 0 = t.val / 32 ∧ win0_0.index t 1 = t.val % 32)

/-- The activation block of `h` at point `t` is block (t / 32, t % 32). -/
theorem idx_h : ∀ t : Fin cfg0.N, win0_1.index t 0 = t.val / 32 ∧ win0_1.index t 1 = t.val % 32 :=
  (by decide +kernel : ∀ t : Fin grid0.N, win0_1.index t 0 = t.val / 32 ∧ win0_1.index t 1 = t.val % 32)

/-- The block of the input weights at point `t` is all rows of column block t % 32. -/
theorem idx_wi : ∀ t : Fin cfg0.N, win0_2.index t 0 = 0 ∧ win0_2.index t 1 = t.val % 32 :=
  (by decide +kernel : ∀ t : Fin grid0.N, win0_2.index t 0 = 0 ∧ win0_2.index t 1 = t.val % 32)

/-- The block of the recurrent weights at point `t` is all rows of column block t % 32. -/
theorem idx_wh : ∀ t : Fin cfg0.N, win0_3.index t 0 = 0 ∧ win0_3.index t 1 = t.val % 32 :=
  (by decide +kernel : ∀ t : Fin grid0.N, win0_3.index t 0 = 0 ∧ win0_3.index t 1 = t.val % 32)

/-- The result block at point `t` is row block t / 32, all columns. -/
theorem idx_o : ∀ t : Fin cfg0.N, win0_4.index t 0 = t.val / 32 ∧ win0_4.index t 1 = 0 :=
  (by decide +kernel : ∀ t : Fin grid0.N, win0_4.index t 0 = t.val / 32 ∧ win0_4.index t 1 = 0)

/-- Entry (p, kk) of the `x` block at point `t` is `x` at row p of row block t / 32, column kk of column block t. -/
theorem xblk_at (c : Dev nD) (t : Fin cfg0.N) (p : Fin 256) (kk : Fin 128) :
    (iblk0 V c 0 t : Vec Ideal S256x128 .bf16) (ix2 p kk)
      = xarr V c (ix2 (Cert.Tern.brow (t.val / 32) p) (Cert.Tern.kcol t.val kk)) := by
  have hN : t.val < 1024 := lt_of_lt_of_eq t.isLt (show cfg0.N = 1024 from N_0)
  unfold iblk0
  rw [View.read_apply]
  show V c main_v0 _ = V c main_v0 _
  congr 1
  funext a
  apply Fin.ext
  match a with
  | ⟨0, _⟩ =>
    show win0_0.index t 0 * 256 + 1 * p.val = 256 * (t.val / 32 % 32) + p.val
    rw [(idx_x t).1]; omega
  | ⟨1, _⟩ =>
    show win0_0.index t 1 * 128 + 1 * kk.val = 128 * (t.val % 32) + kk.val
    rw [(idx_x t).2]; omega

/-- Entry (p, kk) of the `h` block at point `t` is `h` at row p of row block t / 32, column kk of column block t. -/
theorem hblk_at (c : Dev nD) (t : Fin cfg0.N) (p : Fin 256) (kk : Fin 128) :
    (iblk0 V c 1 t : Vec Ideal S256x128 .bf16) (ix2 p kk)
      = harr V c (ix2 (Cert.Tern.brow (t.val / 32) p) (Cert.Tern.kcol t.val kk)) := by
  have hN : t.val < 1024 := lt_of_lt_of_eq t.isLt (show cfg0.N = 1024 from N_0)
  unfold iblk0
  rw [View.read_apply]
  show V c main_v1 _ = V c main_v1 _
  congr 1
  funext a
  apply Fin.ext
  match a with
  | ⟨0, _⟩ =>
    show win0_1.index t 0 * 256 + 1 * p.val = 256 * (t.val / 32 % 32) + p.val
    rw [(idx_h t).1]; omega
  | ⟨1, _⟩ =>
    show win0_1.index t 1 * 128 + 1 * kk.val = 128 * (t.val % 32) + kk.val
    rw [(idx_h t).2]; omega

/-- Entry (q, kk) of the input-weight block at point `t` is the weight of feature q at column kk of column block t. -/
theorem wiblk_at (c : Dev nD) (t : Fin cfg0.N) (q : Fin 4096) (kk : Fin 128) :
    (iblk0 V c 2 t : Vec Ideal S4096x128 .bf16) (ix2 q kk)
      = wiarr V c (ix2 q (Cert.Tern.kcol t.val kk)) := by
  unfold iblk0
  rw [View.read_apply]
  show V c main_v2 _ = V c main_v2 _
  congr 1
  funext a
  apply Fin.ext
  match a with
  | ⟨0, _⟩ =>
    show win0_2.index t 0 * 4096 + 1 * q.val = q.val
    rw [(idx_wi t).1]; omega
  | ⟨1, _⟩ =>
    show win0_2.index t 1 * 128 + 1 * kk.val = 128 * (t.val % 32) + kk.val
    rw [(idx_wi t).2]; omega

/-- Entry (q, kk) of the recurrent-weight block at point `t` is the weight of feature q at column kk of column block t. -/
theorem whblk_at (c : Dev nD) (t : Fin cfg0.N) (q : Fin 4096) (kk : Fin 128) :
    (iblk0 V c 3 t : Vec Ideal S4096x128 .bf16) (ix2 q kk)
      = wharr V c (ix2 q (Cert.Tern.kcol t.val kk)) := by
  unfold iblk0
  rw [View.read_apply]
  show V c main_v3 _ = V c main_v3 _
  congr 1
  funext a
  apply Fin.ext
  match a with
  | ⟨0, _⟩ =>
    show win0_3.index t 0 * 4096 + 1 * q.val = q.val
    rw [(idx_wh t).1]; omega
  | ⟨1, _⟩ =>
    show win0_3.index t 1 * 128 + 1 * kk.val = 128 * (t.val % 32) + kk.val
    rw [(idx_wh t).2]; omega

/-! ## One row block's run: a fold over its 32 column points -/

/-- Point `n`'s contribution at row `p` of its row block and feature `q`: the two sums over the 128 columns of
    column block n (mod 32) of an activation entry of row block n / 32 times the quantized weight of feature `q`.
    It is a function of every natural number; only points of the grid are ever used. -/
def addend (c : Dev nD) (n : ℕ) (p : Fin 256) (q : Fin 4096) : EReal :=
  (∑ kk : Fin 128, xarr V c (ix2 (Cert.Tern.brow (n / 32) p) (Cert.Tern.kcol n kk))
      * Cert.Tern.tern (wiarr V c (ix2 q (Cert.Tern.kcol n kk))))
    + ∑ kk : Fin 128, harr V c (ix2 (Cert.Tern.brow (n / 32) p) (Cert.Tern.kcol n kk))
      * Cert.Tern.tern (wharr V c (ix2 q (Cert.Tern.kcol n kk)))

/-- The same contribution as a block. -/
def addendBlk (c : Dev nD) (n : ℕ) : S256x4096.Idx → EReal := fun i => addend V c n (i 0) (i 1)

/-- The update at point `t`, on the blocks the windows hold there: the accumulator's entry plus the point's contribution. -/
theorem update_at (c : Dev nD) (t : Fin cfg0.N) (acc : Vec Ideal S256x4096 .f32) (p : Fin 256) (q : Fin 4096) :
    k0_pay3 (F := Ideal) (iblk0 V c 2 t) (iblk0 V c 3 t) (iblk0 V c 0 t) (iblk0 V c 1 t) acc (ix2 p q)
      = acc (ix2 p q) + addend V c t.val p q := by
  refine (pay3_at (iblk0 V c 2 t) (iblk0 V c 3 t) (iblk0 V c 0 t) (iblk0 V c 1 t) acc p q).trans ?_
  unfold addend
  refine congrArg₂ (· + ·) rfl (congrArg₂ (· + ·) ?_ ?_)
  · exact Finset.sum_congr rfl fun kk _ =>
      congrArg₂ (· * ·) (xblk_at V c t p kk) (congrArg Cert.Tern.tern (wiblk_at V c t q kk))
  · exact Finset.sum_congr rfl fun kk _ =>
      congrArg₂ (· * ·) (hblk_at V c t p kk) (congrArg Cert.Tern.tern (whblk_at V c t q kk))

/-- What the first column point of a row block leaves: the update of the zero block. -/
def resetAt (c : Dev nD) (n : ℕ) (h : n < cfg0.N) : S256x4096.Idx → EReal :=
  k0_pay3 (F := Ideal) (iblk0 V c 2 ⟨n, h⟩) (iblk0 V c 3 ⟨n, h⟩) (iblk0 V c 0 ⟨n, h⟩) (iblk0 V c 1 ⟨n, h⟩) (k0_pay2 (F := Ideal))

/-- What a later column point makes of the accumulated block: the update, quantized at the last column point. -/
def stepAt (c : Dev nD) (n : ℕ) (h : n < cfg0.N) (acc : S256x4096.Idx → EReal) : S256x4096.Idx → EReal :=
  if n % 32 = 31 then
    k0_pay1 (F := Ideal) (k0_pay3 (F := Ideal) (iblk0 V c 2 ⟨n, h⟩) (iblk0 V c 3 ⟨n, h⟩) (iblk0 V c 0 ⟨n, h⟩) (iblk0 V c 1 ⟨n, h⟩) acc)
  else
    k0_pay3 (F := Ideal) (iblk0 V c 2 ⟨n, h⟩) (iblk0 V c 3 ⟨n, h⟩) (iblk0 V c 0 ⟨n, h⟩) (iblk0 V c 1 ⟨n, h⟩) acc

/-- At the last column point of a row block the step is the quantized update. -/
theorem stepAt_last (c : Dev nD) (n : ℕ) (h : n < cfg0.N) (acc : S256x4096.Idx → EReal) (hn : n % 32 = 31) :
    stepAt V c n h acc
      = k0_pay1 (F := Ideal) (k0_pay3 (F := Ideal) (iblk0 V c 2 ⟨n, h⟩) (iblk0 V c 3 ⟨n, h⟩) (iblk0 V c 0 ⟨n, h⟩) (iblk0 V c 1 ⟨n, h⟩) acc) :=
  if_pos hn

/-- At any other column point the step is the update. -/
theorem stepAt_mid (c : Dev nD) (n : ℕ) (h : n < cfg0.N) (acc : S256x4096.Idx → EReal) (hn : ¬n % 32 = 31) :
    stepAt V c n h acc
      = k0_pay3 (F := Ideal) (iblk0 V c 2 ⟨n, h⟩) (iblk0 V c 3 ⟨n, h⟩) (iblk0 V c 0 ⟨n, h⟩) (iblk0 V c 1 ⟨n, h⟩) acc :=
  if_neg hn

/-- At the first column point of a row block the output block is the reset value. -/
theorem outs_reset (c : Dev nD) (n : ℕ) (h : n < cfg0.N) (h0 : n % 32 = 0) :
    outsAt0 V c n h = resetAt V c n h := by
  have h1 : ¬n % 32 = 31 := by omega
  refine (outsAt0_A V c ⟨n, h⟩ h0 h1).trans ?_
  exact out_A (F := Ideal) c (grid0.coords ⟨n, h⟩) (ms0_0 ⟨n, h⟩) (hs0_0 ⟨n, h⟩) (ms0_1 ⟨n, h⟩) (hs0_1 ⟨n, h⟩)
    (ms0_2 ⟨n, h⟩) (hs0_2 ⟨n, h⟩) (ms0_3 ⟨n, h⟩) (hs0_3 ⟨n, h⟩) (ms0_4 ⟨n, h⟩) (hs0_4 ⟨n, h⟩)
    ((hcond0_0 ⟨n, h⟩).mpr h0) (fun hh => h1 ((hcond0_1 ⟨n, h⟩).mp hh))
    (iblk0 V c 0 ⟨n, h⟩) (iblk0 V c 1 ⟨n, h⟩) (iblk0 V c 2 ⟨n, h⟩) (iblk0 V c 3 ⟨n, h⟩)

/-- At every other point the output block is the step of what the point before left. -/
theorem outs_step (c : Dev nD) (n : ℕ) (h : n + 1 < cfg0.N) (h0 : ¬(n + 1) % 32 = 0) :
    outsAt0 V c (n + 1) h = stepAt V c (n + 1) h (outsAt0 V c n (Nat.lt_of_succ_lt h)) := by
  by_cases h1 : (n + 1) % 32 = 31
  · refine Eq.trans ?_ (stepAt_last V c (n + 1) h _ h1).symm
    refine (outsAt0_C V c ⟨n + 1, h⟩ h0 h1).trans ?_
    exact out_C (F := Ideal) c (grid0.coords ⟨n + 1, h⟩) (ms0_0 ⟨n + 1, h⟩) (hs0_0 ⟨n + 1, h⟩) (ms0_1 ⟨n + 1, h⟩) (hs0_1 ⟨n + 1, h⟩)
      (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩)
      (fun hh => h0 ((hcond0_0 ⟨n + 1, h⟩).mp hh)) ((hcond0_1 ⟨n + 1, h⟩).mpr h1)
      (iblk0 V c 0 ⟨n + 1, h⟩) (iblk0 V c 1 ⟨n + 1, h⟩) (iblk0 V c 2 ⟨n + 1, h⟩) (iblk0 V c 3 ⟨n + 1, h⟩)
      (outsAt0 V c n (Nat.lt_of_succ_lt h))
  · refine Eq.trans ?_ (stepAt_mid V c (n + 1) h _ h1).symm
    refine (outsAt0_B V c ⟨n + 1, h⟩ h0 h1).trans ?_
    exact out_B (F := Ideal) c (grid0.coords ⟨n + 1, h⟩) (ms0_0 ⟨n + 1, h⟩) (hs0_0 ⟨n + 1, h⟩) (ms0_1 ⟨n + 1, h⟩) (hs0_1 ⟨n + 1, h⟩)
      (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩)
      (fun hh => h0 ((hcond0_0 ⟨n + 1, h⟩).mp hh)) (fun hh => h1 ((hcond0_1 ⟨n + 1, h⟩).mp hh))
      (iblk0 V c 0 ⟨n + 1, h⟩) (iblk0 V c 1 ⟨n + 1, h⟩) (iblk0 V c 2 ⟨n + 1, h⟩) (iblk0 V c 3 ⟨n + 1, h⟩)
      (outsAt0 V c n (Nat.lt_of_succ_lt h))

/-- The fold through the first 31 points of the row block that starts at point `b`: zero plus the points'
    contributions, none of these points being the quantizing one. -/
theorem fold_add (c : Dev nD) (b : ℕ) (hb : b % 32 = 0) (j : ℕ) (hj : j ≤ 30) (h : b + j < cfg0.N) (i : S256x4096.Idx) :
    Pipeline.accAt (resetAt V c) (stepAt V c) b j h i = 0 + ∑ s ∈ Finset.range (j + 1), addendBlk V c (b + s) i :=
  Pipeline.accAt_add_apply (resetAt V c) (stepAt V c) (fun _ => (0 : EReal)) (addendBlk V c) b 30
    (fun h i => by
      obtain ⟨p, q, rfl⟩ : ∃ (p : Fin 256) (q : Fin 4096), i = ix2 p q := ⟨i 0, i 1, eq_ix2 i⟩
      unfold resetAt
      refine (update_at V c ⟨b, h⟩ (k0_pay2 (F := Ideal)) p q).trans ?_
      exact congrArg₂ (· + ·) (pay2_at (ix2 p q)) rfl)
    (fun n h acc i hbn hne => by
      obtain ⟨p, q, rfl⟩ : ∃ (p : Fin 256) (q : Fin 4096), i = ix2 p q := ⟨i 0, i 1, eq_ix2 i⟩
      have hn : ¬n % 32 = 31 := by omega
      exact (congrFun (stepAt_mid V c n h acc hn) (ix2 p q)).trans (update_at V c ⟨n, h⟩ acc p q))
    j hj h i

/-- After all 32 points of the row block that starts at `b`: the quantized sum of the 32 contributions. -/
theorem fold_all (c : Dev nD) (b : ℕ) (hb : b % 32 = 0) (h : b + 31 < cfg0.N) (p : Fin 256) (q : Fin 4096) :
    Pipeline.accAt (resetAt V c) (stepAt V c) b 31 h (ix2 p q)
      = Cert.Tern.tern (0 + ∑ s ∈ Finset.range 32, addend V c (b + s) p q) := by
  refine (congrFun (Pipeline.accAt_succ (resetAt V c) (stepAt V c) b 30 h) (ix2 p q)).trans ?_
  refine (congrFun (stepAt_last V c (b + (30 + 1)) h _ (by omega)) (ix2 p q)).trans ?_
  refine (pay1_at _ (ix2 p q)).trans (congrArg Cert.Tern.tern ?_)
  refine (update_at V c ⟨b + (30 + 1), h⟩ _ p q).trans ?_
  have hs : ∑ s ∈ Finset.range 32, addend V c (b + s) p q
      = ∑ s ∈ Finset.range 31, addend V c (b + s) p q + addend V c (b + 31) p q := Finset.sum_range_succ _ 31
  rw [hs]
  refine Eq.trans ?_ (add_assoc _ _ _)
  exact congrArg₂ (· + ·) (fold_add V c b hb 30 le_rfl (Nat.lt_of_succ_lt h) (ix2 p q)) rfl

/-! ## A completed row block holds its rows of the quantized pre-activation -/

/-- The contributions of the 32 column points of row block `mi` add up to the pre-activation: within the run the
    row block does not change and the column blocks are the 32 blocks of the contracted axis, each sum over the
    4096 columns being the sum over the blocks of the sums over a block's columns. -/
theorem addend_run (c : Dev nD) (mi : ℕ) (p : Fin 256) (q : Fin 4096) :
    ∑ s ∈ Finset.range 32, addend V c (32 * mi + s) p q
      = Cert.Tern.preAct (xarr V c) (harr V c) (wiarr V c) (wharr V c) (Cert.Tern.brow mi p) q := by
  unfold Cert.Tern.preAct
  rw [Cert.Tern.sum_kblocks (fun k => xarr V c (ix2 (Cert.Tern.brow mi p) k) * Cert.Tern.tern (wiarr V c (ix2 q k))),
    Cert.Tern.sum_kblocks (fun k => harr V c (ix2 (Cert.Tern.brow mi p) k) * Cert.Tern.tern (wharr V c (ix2 q k))),
    ← Finset.sum_add_distrib]
  refine Finset.sum_congr rfl fun s hs => ?_
  have hs' : s < 32 := Finset.mem_range.mp hs
  have hk : ∀ kk : Fin 128, Cert.Tern.kcol (32 * mi + s) kk = Cert.Tern.kcol s kk := fun kk => Fin.ext (by
    show 128 * ((32 * mi + s) % 32) + kk.val = 128 * (s % 32) + kk.val
    omega)
  have hr : Cert.Tern.brow ((32 * mi + s) / 32) p = Cert.Tern.brow mi p := Fin.ext (by
    show 256 * ((32 * mi + s) / 32 % 32) + p.val = 256 * (mi % 32) + p.val
    omega)
  unfold addend
  simp only [hk, hr]

/-- At the last column point of a row block the output block holds, at (p, q), the quantized pre-activation of
    row p of that row block and feature q. -/
theorem block_done (c : Dev nD) (t : Fin cfg0.N) (h31 : t.val % 32 = 31) (y : S256x4096.Idx) :
    outsAt0 V c t.val t.isLt y
      = Cert.Tern.hidden (xarr V c) (harr V c) (wiarr V c) (wharr V c) (ix2 (Cert.Tern.brow (t.val / 32) (y 0)) (y 1)) := by
  have hN : t.val < 1024 := lt_of_lt_of_eq t.isLt (show cfg0.N = 1024 from N_0)
  obtain ⟨p, q, rfl⟩ : ∃ (p : Fin 256) (q : Fin 4096), y = ix2 p q := ⟨y 0, y 1, eq_ix2 y⟩
  have hb : 32 * (t.val / 32) + 31 < cfg0.N :=
    lt_of_lt_of_eq (by omega : 32 * (t.val / 32) + 31 < 1024) (show (1024 : ℕ) = cfg0.N from N_0.symm)
  have h' : 32 * (t.val / 32) + t.val % 32 < cfg0.N := by rw [h31]; exact hb
  have e1 := Pipeline.eq_accAt_of_mod (outsAt0 V c) 32 (resetAt V c) (stepAt V c)
    (fun n h h0 => outs_reset V c n h h0) (fun n h h0 => outs_step V c n h h0) (by norm_num) t.val t.isLt h'
  have e2 : ∀ (j : ℕ) (hj : j = 31) (hh : 32 * (t.val / 32) + j < cfg0.N),
      Pipeline.accAt (resetAt V c) (stepAt V c) (32 * (t.val / 32)) j hh
        = Pipeline.accAt (resetAt V c) (stepAt V c) (32 * (t.val / 32)) 31 hb := by
    intro j hj hh; subst hj; rfl
  refine (congrFun (e1.trans (e2 _ h31 h')) (ix2 p q)).trans ?_
  refine (fold_all V c (32 * (t.val / 32)) (by omega) hb p q).trans ?_
  show _ = Cert.Tern.tern (Cert.Tern.preAct (xarr V c) (harr V c) (wiarr V c) (wharr V c) (Cert.Tern.brow (t.val / 32) p) q)
  rw [zero_add, addend_run]

/-! ## From the written-back blocks to the result array -/

/-- What a point that writes back writes is its block of `G`, when the accumulated block there holds `G`'s rows
    of row block t / 32. -/
theorem flushed_eq (G : Cert.Tern.SB.Idx → EReal) (c : Dev nD)
    (hO : ∀ (t : Fin cfg0.N), t.val % 32 = 31 → ∀ (y : S256x4096.Idx),
      outsAt0 V c t.val t.isLt y = G (ix2 (Cert.Tern.brow (t.val / 32) (y 0)) (y 1)))
    (t : Fin cfg0.N) (hf : (cfg0.win 4).flush t = true) :
    (dat0 V c).flushed 4 t = ((cfg0.win 4).blk t).view.read (Elt Ideal) G := by
  have h31 := (flush0_4 t).mp hf
  have hN : t.val < 1024 := lt_of_lt_of_eq t.isLt (show cfg0.N = 1024 from N_0)
  show (cfg0.win 4).cut (grid0.coords t) ((dat0 V c).after 4 t) = _
  rw [after0_4]
  funext y
  show outsAt0 V c t.val t.isLt y = G (((cfg0.win 4).blk t).view.emb y)
  refine (hO t h31 y).trans (congrArg G ?_)
  funext a
  apply Fin.ext
  match a with
  | ⟨0, _⟩ =>
    show 256 * (t.val / 32 % 32) + (y 0).val = win0_4.index t 0 * 256 + 1 * (y 0).val
    rw [(idx_o t).1]; omega
  | ⟨1, _⟩ =>
    show (y 1).val = win0_4.index t 1 * 4096 + 1 * (y 1).val
    rw [(idx_o t).2]; omega

/-- Every index of the result array lies in the block written back at the last column point of its row block:
    row r belongs to row block r / 256, whose last point is 32 · (r / 256) + 31. -/
theorem cover (i : Cert.Tern.SB.Idx) :
    ∃ t : Fin cfg0.N, (cfg0.win 4).flush t = true ∧ i ∈ ((cfg0.win 4).blk t).view.set := by
  have hr : (i 0).val < 8192 := (i 0).isLt
  have hj : (i 1).val < 4096 := (i 1).isLt
  let tt : Fin cfg0.N := ⟨32 * ((i 0).val / 256) + 31, by rw [show cfg0.N = 1024 from N_0]; omega⟩
  have htt : tt.val = 32 * ((i 0).val / 256) + 31 := rfl
  refine ⟨tt, (flush0_4 tt).mpr (by rw [htt]; omega), ?_⟩
  show i ∈ ((View.whole main_v5).slice (win0_4.rect tt)).set
  rw [View.set_slice_whole, Rect.mem_set_unit]
  intro a
  match a with
  | ⟨0, _⟩ =>
    show win0_4.index tt 0 * 256 ≤ (i 0).val ∧ (i 0).val < win0_4.index tt 0 * 256 + 256
    rw [(idx_o tt).1, htt]; omega
  | ⟨1, _⟩ =>
    show win0_4.index tt 1 * 4096 ≤ (i 1).val ∧ (i 1).val < win0_4.index tt 1 * 4096 + 4096
    rw [(idx_o tt).2]; omega

/-- So the result array ends holding `G` as soon as every completed block holds its rows of `G`. -/
theorem final_of (G : Cert.Tern.SB.Idx → EReal) (c : Dev nD)
    (hO : ∀ (t : Fin cfg0.N), t.val % 32 = 31 → ∀ (y : S256x4096.Idx),
      outsAt0 V c t.val t.isLt y = G (ix2 (Cert.Tern.brow (t.val / 32) (y 0)) (y 1))) :
    (dat0 V c).arrAt 4 cfg0.N = G :=
  (dat0 V c).arrAt_eq_of_cover 4 G (flushed_eq V G c hO) (cover)

/-- After the region's last write-back its result array is the quantized pre-activation of the arrays behind its
    four input windows, as the region found them. -/
theorem final (c : Dev nD) :
    (dat0 (F := Ideal) V c).arrAt 4 cfg0.N
      = Cert.Tern.hidden (V c main_v0) (V c main_v1) (V c main_v2) (V c main_v3) :=
  final_of V (Cert.Tern.hidden (V c main_v0) (V c main_v1) (V c main_v2) (V c main_v3)) c (block_done V c)

end Cert.KernelIdeal.StepValue

end
-- ==== Proof.OutValue.lean ====
/-
  The second kernel region (the output layer), read as a value: whatever the arrays hold when the region is
  entered, its result array ends holding the output layer of the hidden array and the weight array its windows read.
-/
import proofs.«163406_j15015205666917_1_alg».proof.Proof.Spec
import proofs.«163406_j15015205666917_1_alg».proof.Proof.MatmulAt
import proofs.«163406_j15015205666917_1_alg».proof.Proof.Gen.KernelIdeal.Frame
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.OutValue

open Cert.KernelIdeal Cert.KernelIdeal.Gen

section Pieces

variable {F : FTy → Type} [FloatOps F]

/-- The all-zero offset of a whole-block access. -/
theorem hz : (![0, 0] : Fin 2 → Nat) = fun _ => 0 := funext fun a => by fin_cases a <;> rfl

/-- In a later column block the body leaves, in the output block holding xo, the update of xo by the hidden
    block x0 and the weight block x1: its one covering store's payload, every load a whole buffer. -/
theorem out_B (c : Dev nD) (i : grid1.Coords) (a2 : Memref sig .tc .vmem S256x128 .f32) (h2 : a2.IsWhole)
    (a3 : Memref sig .tc .vmem S4096x128 .bf16) (h3 : a3.IsWhole) (a4 : Memref sig .tc .vmem S256x4096 .f32) (h4 : a4.IsWhole)
    (hc : ¬cond1_0 i) (x0 : Vec F S256x128 .f32) (x1 : Vec F S4096x128 .bf16) (xo : Vec F S256x4096 .f32) :
    out1_B_2 c i a2 h2 a3 h3 a4 h4 hc x0 x1 xo = k1_pay2 x1 x0 xo := by
  unfold out1_B_2
  rw [View.read_writes_eq_canon _ _ _ (cover1_B_2 c i a2 h2 a3 h3 a4 h4 hc x0 x1 xo)]
  unfold kernelRun1_B
  dsimp only
  sl_unfold_words
  rw [View.canon_unit_zero hz]
  simp only [View.readAt_eq_ld, h2.read_unread, h3.read_unread, h4.read_unread, View.ld_unit_zero (S := S256x128) hz,
    View.ld_unit_zero (S := S4096x128) hz, View.ld_unit_zero (S := S256x4096) hz]

/-- In the first column block the body stores the zero block, reads it back, and leaves its update by the hidden
    block x0 and the weight block x1. -/
theorem out_A (c : Dev nD) (i : grid1.Coords) (a2 : Memref sig .tc .vmem S256x128 .f32) (h2 : a2.IsWhole)
    (a3 : Memref sig .tc .vmem S4096x128 .bf16) (h3 : a3.IsWhole) (a4 : Memref sig .tc .vmem S256x4096 .f32) (h4 : a4.IsWhole)
    (hc : cond1_0 i) (x0 : Vec F S256x128 .f32) (x1 : Vec F S4096x128 .bf16) :
    out1_A_2 c i a2 h2 a3 h3 a4 h4 hc x0 x1 = k1_pay2 x1 x0 k1_pay1 := by
  unfold out1_A_2
  rw [View.read_writes_eq_canon _ _ _ (cover1_A_2 c i a2 h2 a3 h3 a4 h4 hc x0 x1)]
  unfold kernelRun1_A
  dsimp only
  sl_unfold_words
  rw [View.canon_cons_unit_zero (S := S256x4096) hz, View.readCov_unit_zero (S := S256x4096) _ hz]
  simp only [View.readAt_eq_ld, h2.read_unread, h3.read_unread, View.ld_unit_zero (S := S256x128) hz,
    View.ld_unit_zero (S := S4096x128) hz, View.ld_unit_zero (S := S256x4096) hz]

end Pieces

/-! ## The body's arithmetic at an index -/

/-- The zero block the first column block stores is zero at every index. -/
theorem pay1_at (j : S256x4096.Idx) : k1_pay1 (F := Ideal) j = 0 := by
  unfold k1_pay1
  exact Ideal.ofBits_zero_f32

/-- The update at row p, column q: the accumulator's entry plus the sum over the block's 128 columns of the hidden
    entry times the quantized weight (the weights are quantized entry by entry before the product; the conversions
    between the two float widths are the identity on extended reals). -/
theorem pay2_at (v3 : Vec Ideal S4096x128 .bf16) (v12 : Vec Ideal S256x128 .f32) (v16 : Vec Ideal S256x4096 .f32)
    (p : Fin 256) (q : Fin 4096) :
    k1_pay2 (F := Ideal) v3 v12 v16 (ix2 p q)
      = v16 (ix2 p q) + ∑ kk : Fin 128, v12 (ix2 p kk) * Cert.Tern.tern (v3 (ix2 q kk)) := by
  unfold k1_pay2
  refine (addf_apply _ _ _).trans ?_
  refine congrArg₂ (· + ·) (congrFun (shapeCast_self v16 _) (ix2 p q)) ?_
  refine (Cert.KernelIdeal.MatmulAt.matmul_zero_at _ _ p q).trans ?_
  refine Finset.sum_congr rfl fun kk _ => ?_
  refine congrArg₂ (· * ·) ?_ ?_
  · exact congrFun (shapeCast_self v12 _) (ix2 p kk)
  · show min _ (max _ (Ideal.liftRound Ideal.roundHalfEven (shapeCast S4096x128 v3 _ (ix2 q kk)))) = _
    rw [congrFun (shapeCast_self v3 _) (ix2 q kk)]
    rfl

/-! ## The input blocks, read where the arrays say -/

/-- The hidden window's block index at a point: its row block and its column block. -/
theorem idx1_0 : ∀ t : Fin cfg1.N, win1_0.index t 0 = t.val / 32 ∧ win1_0.index t 1 = t.val % 32 :=
  (by decide +kernel : ∀ t : Fin grid1.N, win1_0.index t 0 = t.val / 32 ∧ win1_0.index t 1 = t.val % 32)

/-- The weight window's block index at a point: all rows, the point's column block. -/
theorem idx1_1 : ∀ t : Fin cfg1.N, win1_1.index t 0 = 0 ∧ win1_1.index t 1 = t.val % 32 :=
  (by decide +kernel : ∀ t : Fin grid1.N, win1_1.index t 0 = 0 ∧ win1_1.index t 1 = t.val % 32)

/-- The output window's block index at a point: the point's row block, all columns. -/
theorem idx1_2 : ∀ t : Fin cfg1.N, win1_2.index t 0 = t.val / 32 ∧ win1_2.index t 1 = 0 :=
  (by decide +kernel : ∀ t : Fin grid1.N, win1_2.index t 0 = t.val / 32 ∧ win1_2.index t 1 = 0)

section Blocks

open Cert.Tern

variable (V : (c : Dev nD) → (b : Ref sig .tc) → Buf (Elt Ideal) ((c : Thread nD τ).loc b))

/-- Entry (p, kk) of the hidden block at a point is the hidden array at that row of the point's row block and that
    column of the point's column block. -/
theorem iblk1_0_at (c : Dev nD) (t : Fin cfg1.N) (p : Fin 256) (kk : Fin 128) :
    (iblk1 V c 0 t : Vec Ideal S256x128 .f32) (ix2 p kk) = (V c main_v5 : SB.Idx → EReal) (ix2 (brow (t.val / 32) p) (kcol t.val kk)) := by
  have hN : t.val < 1024 := lt_of_lt_of_eq t.isLt (show cfg1.N = 1024 from N_1)
  unfold iblk1
  rw [View.read_apply]
  show V c main_v5 _ = V c main_v5 _
  congr 1
  funext a
  apply Fin.ext
  match a with
  | ⟨0, _⟩ =>
    show win1_0.index t 0 * 256 + 1 * p.val = 256 * (t.val / 32 % 32) + p.val
    rw [(idx1_0 t).1]; omega
  | ⟨1, _⟩ =>
    show win1_0.index t 1 * 128 + 1 * kk.val = 128 * (t.val % 32) + kk.val
    rw [(idx1_0 t).2]; omega

/-- Entry (q, kk) of the weight block at a point is the weight array at row q and that column of the point's
    column block. -/
theorem iblk1_1_at (c : Dev nD) (t : Fin cfg1.N) (q : Fin 4096) (kk : Fin 128) :
    (iblk1 V c 1 t : Vec Ideal S4096x128 .bf16) (ix2 q kk) = (V c main_v4 : SW.Idx → EReal) (ix2 q (kcol t.val kk)) := by
  unfold iblk1
  rw [View.read_apply]
  show V c main_v4 _ = V c main_v4 _
  congr 1
  funext a
  apply Fin.ext
  match a with
  | ⟨0, _⟩ =>
    show win1_1.index t 0 * 4096 + 1 * q.val = q.val
    rw [(idx1_1 t).1]; omega
  | ⟨1, _⟩ =>
    show win1_1.index t 1 * 128 + 1 * kk.val = 128 * (t.val % 32) + kk.val
    rw [(idx1_1 t).2]; omega

end Blocks

/-! ## The fold along a row block's run of column blocks -/

section Fold

open Cert.Tern Idealize.ShloMosaic.Pipeline

variable (V : (c : Dev nD) → (b : Ref sig .tc) → Buf (Elt Ideal) ((c : Thread nD τ).loc b))

/-- The hidden block at a point, at its literal type. -/
abbrev hblk (c : Dev nD) (t : Fin cfg1.N) : Vec Ideal S256x128 .f32 := iblk1 V c 0 t
/-- The weight block at a point, at its literal type. -/
abbrev wblk (c : Dev nD) (t : Fin cfg1.N) : Vec Ideal S4096x128 .bf16 := iblk1 V c 1 t

/-- The hidden array as the region finds it, at its literal type. -/
abbrev hidArr (c : Dev nD) : SB.Idx → EReal := V c main_v5
/-- The weight array as the region finds it, at its literal type. -/
abbrev wArr (c : Dev nD) : SW.Idx → EReal := V c main_v4

/-- What column block n (read modulo 32) adds to entry (p, q) of row block n / 32 (read modulo 32): the sum over the
    block's 128 columns of the hidden entry times the quantized weight. -/
def addend (c : Dev nD) (n : ℕ) (p : Fin 256) (q : Fin 4096) : EReal :=
  ∑ kk : Fin 128, hidArr V c (ix2 (brow (n / 32) p) (kcol n kk)) * tern (wArr V c (ix2 q (kcol n kk)))

/-- One point's update of an accumulator block, at an entry: the entry plus the point's addend. -/
theorem step_at (c : Dev nD) (t : Fin cfg1.N) (acc : Vec Ideal S256x4096 .f32) (p : Fin 256) (q : Fin 4096) :
    k1_pay2 (F := Ideal) (wblk V c t) (hblk V c t) acc (ix2 p q) = acc (ix2 p q) + addend V c t.val p q := by
  refine (pay2_at (wblk V c t) (hblk V c t) acc p q).trans ?_
  refine congrArg (acc (ix2 p q) + ·) (Finset.sum_congr rfl fun kk _ => ?_)
  exact congrArg₂ (· * ·) (iblk1_0_at V c t p kk) (congrArg tern (iblk1_1_at V c t q kk))

/-- What a first column block leaves in the output block: the update of the zero block. -/
def resetAt (c : Dev nD) (n : ℕ) (h : n < cfg1.N) : Vec Ideal S256x4096 .f32 :=
  k1_pay2 (wblk V c ⟨n, h⟩) (hblk V c ⟨n, h⟩) (k1_pay1 (F := Ideal))

/-- What a later column block leaves in the output block holding acc. -/
def stepAt (c : Dev nD) (n : ℕ) (h : n < cfg1.N) (acc : Vec Ideal S256x4096 .f32) : Vec Ideal S256x4096 .f32 :=
  k1_pay2 (wblk V c ⟨n, h⟩) (hblk V c ⟨n, h⟩) acc

/-- At the first column block of a row block the output block is reset. -/
theorem outsAt_reset (c : Dev nD) (n : ℕ) (h : n < cfg1.N) (h0 : n % 32 = 0) :
    outsAt1 V c n h = resetAt V c n h := by
  rw [outsAt1_A V c ⟨n, h⟩ h0]
  exact out_A (F := Ideal) c (grid1.coords ⟨n, h⟩) (ms1_0 ⟨n, h⟩) (hs1_0 ⟨n, h⟩) (ms1_1 ⟨n, h⟩) (hs1_1 ⟨n, h⟩)
    (ms1_2 ⟨n, h⟩) (hs1_2 ⟨n, h⟩) ((hcond1_0 ⟨n, h⟩).mpr h0) (hblk V c ⟨n, h⟩) (wblk V c ⟨n, h⟩)

/-- At every other column block it is updated from what the point before left. -/
theorem outsAt_step (c : Dev nD) (n : ℕ) (h : n + 1 < cfg1.N) (h0 : ¬(n + 1) % 32 = 0) :
    outsAt1 V c (n + 1) h = stepAt V c (n + 1) h (outsAt1 V c n (Nat.lt_of_succ_lt h)) := by
  rw [outsAt1_B V c ⟨n + 1, h⟩ h0]
  exact out_B (F := Ideal) c (grid1.coords ⟨n + 1, h⟩) (ms1_0 ⟨n + 1, h⟩) (hs1_0 ⟨n + 1, h⟩) (ms1_1 ⟨n + 1, h⟩)
    (hs1_1 ⟨n + 1, h⟩) (ms1_2 ⟨n + 1, h⟩) (hs1_2 ⟨n + 1, h⟩) (fun hh => h0 ((hcond1_0 ⟨n + 1, h⟩).mp hh))
    (hblk V c ⟨n + 1, h⟩) (wblk V c ⟨n + 1, h⟩) (outsAt1 V c n (Nat.lt_of_succ_lt h))

/-- Points of one row block name the same rows, and a column block past the first 32 the same columns as its
    remainder: the addend of point 32 b + s (s < 32) is column block s's, on row block b. -/
theorem addend_run (c : Dev nD) (b s : ℕ) (hs : s < 32) (p : Fin 256) (q : Fin 4096) :
    addend V c (32 * b + s) p q
      = ∑ kk : Fin 128, hidArr V c (ix2 (brow b p) (kcol s kk)) * tern (wArr V c (ix2 q (kcol s kk))) := by
  have hb : brow ((32 * b + s) / 32) p = brow b p := Fin.ext (by unfold brow; dsimp only; omega)
  have hk : ∀ kk : Fin 128, kcol (32 * b + s) kk = kcol s kk := fun kk => Fin.ext (by unfold kcol; dsimp only; omega)
  unfold addend
  rw [hb]
  exact Finset.sum_congr rfl fun kk _ => by rw [hk kk]

/-- THE ACCUMULATED BLOCK at the last column block of a row block: the run of 32 points from the row block's first
    is a fold that starts from zero and adds one column block's sum per point, so entry (p, q) is the sum over the
    32 blocks of the block sums, which is the one sum over all 4096 columns: the output layer at that row of the
    row block and column q. -/
theorem acc_last (c : Dev nD) (t : Fin cfg1.N) (h31 : t.val % 32 = 31) (p : Fin 256) (q : Fin 4096) :
    outsAt1 V c t.val t.isLt (ix2 p q) = outOf (hidArr V c) (wArr V c) (ix2 (brow (t.val / 32) p) q) := by
  have h' : 32 * (t.val / 32) + t.val % 32 < cfg1.N := by rw [Nat.div_add_mod]; exact t.isLt
  refine (congrFun (eq_accAt_of_mod (outsAt1 V c) 32 (resetAt V c) (stepAt V c) (outsAt_reset V c) (outsAt_step V c)
    (by decide) t.val t.isLt h') (ix2 p q)).trans ?_
  refine (accAt_add_apply (ι := S256x4096.Idx) (β := EReal) (resetAt V c) (stepAt V c) (fun _ => (0 : EReal))
    (fun n i => addend V c n (i 0) (i 1)) (32 * (t.val / 32)) 31 ?_ ?_ (t.val % 32) (by omega) h' (ix2 p q)).trans ?_
  · intro h i
    obtain ⟨p, q, rfl⟩ : ∃ (p : Fin 256) (q : Fin 4096), i = ix2 p q := ⟨i 0, i 1, eq_ix2 i⟩
    exact (step_at V c ⟨32 * (t.val / 32), h⟩ (k1_pay1 (F := Ideal)) p q).trans
      (congrArg (· + addend V c (32 * (t.val / 32)) p q) (pay1_at (ix2 p q)))
  · intro n h acc i _ _
    obtain ⟨p, q, rfl⟩ : ∃ (p : Fin 256) (q : Fin 4096), i = ix2 p q := ⟨i 0, i 1, eq_ix2 i⟩
    exact step_at V c ⟨n, h⟩ acc p q
  · rw [h31]
    show (0 : EReal) + ∑ s ∈ Finset.range 32, addend V c (32 * (t.val / 32) + s) p q
      = ∑ k : Fin 4096, hidArr V c (ix2 (brow (t.val / 32) p) k) * tern (wArr V c (ix2 q k))
    rw [zero_add, sum_kblocks]
    exact Finset.sum_congr rfl fun s hs => addend_run V c (t.val / 32) s (Finset.mem_range.mp hs) p q

end Fold

/-! ## From the blocks to the array -/

section Cover

open Cert.Tern

variable (V : (c : Dev nD) → (b : Ref sig .tc) → Buf (Elt Ideal) ((c : Thread nD τ).loc b))

/-- What a point that writes back writes is its block of G, when the accumulated block there is G's rows of the
    point's row block. -/
theorem flushed_eq (G : SB.Idx → EReal) (c : Dev nD)
    (hO : ∀ (t : Fin cfg1.N), t.val % 32 = 31 → ∀ (y : S256x4096.Idx),
      outsAt1 V c t.val t.isLt y = G (ix2 (brow (t.val / 32) (y 0)) (y 1)))
    (t : Fin cfg1.N) (hf : (cfg1.win 2).flush t = true) :
    (dat1 V c).flushed 2 t = ((cfg1.win 2).blk t).view.read (Elt Ideal) G := by
  have h31 := (flush1_2 t).mp hf
  have hN : t.val < 1024 := lt_of_lt_of_eq t.isLt (show cfg1.N = 1024 from N_1)
  show (cfg1.win 2).cut (grid1.coords t) ((dat1 V c).after 2 t) = _
  rw [after1_2]
  funext y
  show outsAt1 V c t.val t.isLt y = G (((cfg1.win 2).blk t).view.emb y)
  refine (hO t h31 y).trans (congrArg G ?_)
  funext a
  apply Fin.ext
  match a with
  | ⟨0, _⟩ =>
    show 256 * (t.val / 32 % 32) + (y 0).val = win1_2.index t 0 * 256 + 1 * (y 0).val
    rw [(idx1_2 t).1]; omega
  | ⟨1, _⟩ =>
    show (y 1).val = win1_2.index t 1 * 4096 + 1 * (y 1).val
    rw [(idx1_2 t).2]; omega

/-- Every index of the result array lies in the block of the last column point of its row block. -/
theorem cover (i : SB.Idx) : ∃ t : Fin cfg1.N, (cfg1.win 2).flush t = true ∧ i ∈ ((cfg1.win 2).blk t).view.set := by
  have hr : (i 0).val < 8192 := (i 0).isLt
  have hj : (i 1).val < 4096 := (i 1).isLt
  let tt : Fin cfg1.N := ⟨32 * ((i 0).val / 256) + 31, by rw [show cfg1.N = 1024 from N_1]; omega⟩
  have htt : tt.val = 32 * ((i 0).val / 256) + 31 := rfl
  refine ⟨tt, (flush1_2 tt).mpr (by rw [htt]; omega), ?_⟩
  show i ∈ ((View.whole main_v6).slice (win1_2.rect tt)).set
  rw [View.set_slice_whole, Rect.mem_set_unit]
  intro a
  match a with
  | ⟨0, _⟩ =>
    show win1_2.index tt 0 * 256 ≤ (i 0).val ∧ (i 0).val < win1_2.index tt 0 * 256 + 256
    rw [(idx1_2 tt).1, htt]; omega
  | ⟨1, _⟩ =>
    show win1_2.index tt 1 * 4096 ≤ (i 1).val ∧ (i 1).val < win1_2.index tt 1 * 4096 + 4096
    rw [(idx1_2 tt).2]; omega

/-- So the result array ends holding G. -/
theorem final_of (G : SB.Idx → EReal) (c : Dev nD)
    (hO : ∀ (t : Fin cfg1.N), t.val % 32 = 31 → ∀ (y : S256x4096.Idx),
      outsAt1 V c t.val t.isLt y = G (ix2 (brow (t.val / 32) (y 0)) (y 1))) :
    (dat1 V c).arrAt 2 cfg1.N = G :=
  (dat1 V c).arrAt_eq_of_cover 2 G (flushed_eq V G c hO) (cover)

end Cover

variable (V : (c : Dev nD) → (b : Ref sig .tc) → Buf (Elt Ideal) ((c : Thread nD τ).loc b))

/-- After the region's last write-back its result array is the output layer applied to the hidden array and the
    weights behind its two input windows, as the region found them. -/
theorem final (c : Dev nD) :
    (dat1 (F := Ideal) V c).arrAt 2 cfg1.N = Cert.Tern.outOf (V c main_v5) (V c main_v4) := by
  refine final_of V (Cert.Tern.outOf (V c main_v5) (V c main_v4)) c fun t h31 y => ?_
  obtain ⟨p, q, rfl⟩ : ∃ (p : Fin 256) (q : Fin 4096), y = ix2 p q := ⟨y 0, y 1, eq_ix2 y⟩
  exact acc_last V c t h31 p q

end Cert.KernelIdeal.OutValue

end
-- ==== Proof.KernelValue.lean ====
/-
  The idealized kernel program's run, read as values. The host lines before the first region only change the
  arguments' float format, which is the identity on extended reals; so the first region finds the arguments
  themselves behind its windows and leaves the new hidden state in its result array; the second region finds that
  array and the (format-changed, hence unchanged) output weights and leaves the output. Neither region writes
  anything else, so at the return the two result arrays hold the step's two arrays of the arguments.
-/
import proofs.«163406_j15015205666917_1_alg».proof.Proof.Spec
import proofs.«163406_j15015205666917_1_alg».proof.Proof.Launched
import proofs.«163406_j15015205666917_1_alg».proof.Proof.StepValue
import proofs.«163406_j15015205666917_1_alg».proof.Proof.OutValue
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.KernelValue

open Cert.KernelIdeal Cert.KernelIdeal.Gen Cert.Tern

variable (m : (ℓ : Loc nD τ sig) → Buf (Elt Ideal) ℓ) (ρ : Dev nD → PrngReg)

/-! ## What the first region finds: the arguments, their format changed (the identity) -/

theorem entry_v0 (c : Dev nD) : (V1 m ρ c main_v0 : SB.Idx → EReal) = m ((c : Thread nD τ).loc main_arg0) := by
  show StableHlo.after hostOps0 (W0 m ρ c) (Proc.devRef .tc main_v0) = _
  after_results
  rfl

theorem entry_v1 (c : Dev nD) : (V1 m ρ c main_v1 : SB.Idx → EReal) = m ((c : Thread nD τ).loc main_arg1) := by
  show StableHlo.after hostOps0 (W0 m ρ c) (Proc.devRef .tc main_v1) = _
  after_results
  rfl

theorem entry_v2 (c : Dev nD) : (V1 m ρ c main_v2 : SW.Idx → EReal) = m ((c : Thread nD τ).loc main_arg2) := by
  show StableHlo.after hostOps0 (W0 m ρ c) (Proc.devRef .tc main_v2) = _
  after_results
  rfl

theorem entry_v3 (c : Dev nD) : (V1 m ρ c main_v3 : SW.Idx → EReal) = m ((c : Thread nD τ).loc main_arg3) := by
  show StableHlo.after hostOps0 (W0 m ρ c) (Proc.devRef .tc main_v3) = _
  after_results
  rfl

theorem entry_v4 (c : Dev nD) : (V1 m ρ c main_v4 : SW.Idx → EReal) = m ((c : Thread nD τ).loc main_arg4) := by
  show StableHlo.after hostOps0 (W0 m ρ c) (Proc.devRef .tc main_v4) = _
  after_results
  rfl

/-! ## What the second region finds -/

/-- The first region's result array when the second region is entered: the new hidden state of the arguments. -/
theorem mid_v5 (c : Dev nD) : (V2 m ρ c main_v5 : SB.Idx → EReal)
    = hidden (m ((c : Thread nD τ).loc main_arg0)) (m ((c : Thread nD τ).loc main_arg1))
        (m ((c : Thread nD τ).loc main_arg2)) (m ((c : Thread nD τ).loc main_arg3)) := by
  have e := (W2_arr m ρ c 4).trans (Cert.KernelIdeal.StepValue.final (V1 m ρ) c)
  rw [entry_v0, entry_v1, entry_v2, entry_v3] at e
  exact e

/-- The output weights are untouched by the first region. -/
theorem mid_v4 (c : Dev nD) : (V2 m ρ c main_v4 : SW.Idx → EReal) = m ((c : Thread nD τ).loc main_arg4) :=
  (W2_of_ne m ρ c main_v4 (by decide)).trans (entry_v4 m ρ c)

/-! ## The two result arrays at the return -/

theorem exit_v6 (c : Dev nD) : (W3 m ρ c (Proc.devRef .tc main_v6) : SB.Idx → EReal)
    = out (m ((c : Thread nD τ).loc main_arg0)) (m ((c : Thread nD τ).loc main_arg1))
        (m ((c : Thread nD τ).loc main_arg2)) (m ((c : Thread nD τ).loc main_arg3)) (m ((c : Thread nD τ).loc main_arg4)) := by
  have e := (W3_arr m ρ c 2).trans (Cert.KernelIdeal.OutValue.final (V2 m ρ) c)
  rw [mid_v5, mid_v4] at e
  exact e

theorem exit_v5 (c : Dev nD) : (W3 m ρ c (Proc.devRef .tc main_v5) : SB.Idx → EReal)
    = hidden (m ((c : Thread nD τ).loc main_arg0)) (m ((c : Thread nD τ).loc main_arg1))
        (m ((c : Thread nD τ).loc main_arg2)) (m ((c : Thread nD τ).loc main_arg3)) := by
  have e : W3 m ρ c (Proc.devRef .tc main_v5) = V2 m ρ c main_v5 :=
    (W3_arr m ρ c 0).trans (((dat1 (V2 m ρ) c).arrAt_in 0 rfl _).trans (A_eq1 (V2 m ρ) c 0))
  exact e.trans (mid_v5 m ρ c)

/-- Every weakly fair execution of the idealized kernel program terminates, nothing faulting, with the output and the
    new hidden state of its arguments in its two result arrays and the arguments as launched. -/
theorem run : θ_run defs (onTc (τ := τ) (main (F := Ideal))) ⟨m, fun _ => 0, ρ⟩ (fun r => ∀ c : Dev nD,
      r.2.mem ((c.tc : Thread nD τ).loc main_v6)
        = out (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_v5)
        = hidden (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono
    (fun _ h c => ⟨(h c).1.trans (exit_v6 m ρ c), (h c).2.1.trans (exit_v5 m ρ c), (h c).2.2⟩)
    (Cert.KernelIdeal.Launched.run_at_exit (F := Ideal) m ρ)

end Cert.KernelIdeal.KernelValue

end
-- ==== Proof.RefRead.lean ====
/-
  The reference program read one operation at a time: at real inputs its two results are the step's two arrays.
  Its quantizer is spelled in the straight-through form w + (q(w) - w); at a real w that is q(w), and the
  pre-activation of real inputs is again real, so the same cancellation serves the hidden state.
-/
import proofs.«163406_j15015205666917_1_alg».proof.Proof.Spec
import proofs.«163406_j15015205666917_1_alg».proof.Proof.Gen.ReferenceIdeal.Run
import proofs.«163406_j15015205666917_1_alg».proof.Proof.Gen.ReferenceIdeal.Read
import Idealize.ShloMosaic.Lib.ValueIdx
import Idealize.ShloMosaic.PureOps.Ideal.Laws

noncomputable section

open Idealize.ShloMosaic Idealize.ShloMosaic.TcCoe Idealize.SL.Sem
open Idealize.ShloMosaic.ValueIdx

namespace Cert.ReferenceIdeal.RefRead

open Cert.ReferenceIdeal Cert.ReferenceIdeal.Read Cert.Tern

/-! ## The quantizer as the reference spells it -/

/-- The clipped rounding the reference spells out, min 1 (max (-1) (round-half-even w)), is the quantizer. -/
private theorem tern_def (w : EReal) :
    min (Ideal.ofBits .f32 0x3F800000#32)
      (max (Ideal.ofBits .f32 0xBF800000#32) (Ideal.liftRound Ideal.roundHalfEven w)) = tern w := rfl

/-! ## The index maps of the transposes and the contractions

  A transpose reads its operand with the two coordinates swapped. A contraction over the shared axis reads
  the left operand at (row, k) and the right operand at (k, column). -/

private theorem idx_v4 (k j : Fin 4096) : idx_main_v4 (ix2 k j) = ix2 j k :=
  funext fun a => by match a with | ⟨0, _⟩ => rfl | ⟨1, _⟩ => rfl
private theorem idx_v10 (k j : Fin 4096) : idx_main_v10 (ix2 k j) = ix2 j k :=
  funext fun a => by match a with | ⟨0, _⟩ => rfl | ⟨1, _⟩ => rfl
private theorem idx_v21 (k j : Fin 4096) : idx_main_v21 (ix2 k j) = ix2 j k :=
  funext fun a => by match a with | ⟨0, _⟩ => rfl | ⟨1, _⟩ => rfl

private theorem lidx_v5 (r : Fin 8192) (j k : Fin 4096) : lidx_main_v5 (ix2 r j) k = ix2 r k :=
  funext fun a => by match a with | ⟨0, _⟩ => rfl | ⟨1, _⟩ => rfl
private theorem ridx_v5 (r : Fin 8192) (j k : Fin 4096) : ridx_main_v5 (ix2 r j) k = ix2 k j :=
  funext fun a => by match a with | ⟨0, _⟩ => rfl | ⟨1, _⟩ => rfl
private theorem lidx_v11 (r : Fin 8192) (j k : Fin 4096) : lidx_main_v11 (ix2 r j) k = ix2 r k :=
  funext fun a => by match a with | ⟨0, _⟩ => rfl | ⟨1, _⟩ => rfl
private theorem ridx_v11 (r : Fin 8192) (j k : Fin 4096) : ridx_main_v11 (ix2 r j) k = ix2 k j :=
  funext fun a => by match a with | ⟨0, _⟩ => rfl | ⟨1, _⟩ => rfl
private theorem lidx_v22 (r : Fin 8192) (j k : Fin 4096) : lidx_main_v22 (ix2 r j) k = ix2 r k :=
  funext fun a => by match a with | ⟨0, _⟩ => rfl | ⟨1, _⟩ => rfl
private theorem ridx_v22 (r : Fin 8192) (j k : Fin 4096) : ridx_main_v22 (ix2 r j) k = ix2 k j :=
  funext fun a => by match a with | ⟨0, _⟩ => rfl | ⟨1, _⟩ => rfl

/-! ## One entry of a quantized, transposed weight

  Entry (k, j) of the transposed array is entry (j, k) of w + (q(w) - w), which depends on the single weight
  w[j, k]; that weight is real, so the straight-through form collapses to q(w[j, k]). -/

/-- The input weight, quantized and transposed. -/
private theorem v4_entry (x2 : (⟨S4096x4096, .f32⟩ : BufTy).Contents (Elt Ideal)) (h2 : AllReal x2)
    (k j : Fin 4096) : val_main_v4 (F := Ideal) x2 (ix2 k j) = tern (x2 (ix2 j k)) := by
  rw [val_main_v4_apply, idx_v4, val_main_v3_apply, val_main_v2_apply, val_main_v1_apply,
    val_main_call1_v4_apply, val_main_call1_v3_apply, val_main_cst_0_apply,
    val_main_call1_v2_apply, val_main_call1_v1_apply, val_main_call1_v0_apply, val_main_cst_apply,
    val_main_v0_apply]
  simp only [Ideal.addf_def, Ideal.subf_def, Ideal.maximumf_def, Ideal.minimumf_def,
    Ideal.hostUnary_roundeven_def, Ideal.ofBits_def]
  rw [tern_def]
  exact ste_eq _ (h2 _)

/-- The recurrent weight, quantized and transposed. -/
private theorem v10_entry (x3 : (⟨S4096x4096, .f32⟩ : BufTy).Contents (Elt Ideal)) (h3 : AllReal x3)
    (k j : Fin 4096) : val_main_v10 (F := Ideal) x3 (ix2 k j) = tern (x3 (ix2 j k)) := by
  rw [val_main_v10_apply, idx_v10, val_main_v9_apply, val_main_v8_apply, val_main_v7_apply,
    val_main_call3_v4_apply, val_main_call3_v3_apply, val_main_cst_2_apply,
    val_main_call3_v2_apply, val_main_call3_v1_apply, val_main_call3_v0_apply, val_main_cst_1_apply,
    val_main_v6_apply]
  simp only [Ideal.addf_def, Ideal.subf_def, Ideal.maximumf_def, Ideal.minimumf_def,
    Ideal.hostUnary_roundeven_def, Ideal.ofBits_def]
  rw [tern_def]
  exact ste_eq _ (h3 _)

/-- The output weight, quantized and transposed. -/
private theorem v21_entry (x4 : (⟨S4096x4096, .f32⟩ : BufTy).Contents (Elt Ideal)) (h4 : AllReal x4)
    (k j : Fin 4096) : val_main_v21 (F := Ideal) x4 (ix2 k j) = tern (x4 (ix2 j k)) := by
  rw [val_main_v21_apply, idx_v21, val_main_v20_apply, val_main_v19_apply, val_main_v18_apply,
    val_main_call7_v4_apply, val_main_call7_v3_apply, val_main_cst_6_apply,
    val_main_call7_v2_apply, val_main_call7_v1_apply, val_main_call7_v0_apply, val_main_cst_5_apply,
    val_main_v17_apply]
  simp only [Ideal.addf_def, Ideal.subf_def, Ideal.maximumf_def, Ideal.minimumf_def,
    Ideal.hostUnary_roundeven_def, Ideal.ofBits_def]
  rw [tern_def]
  exact ste_eq _ (h4 _)

/-! ## The pre-activation

  Entry (r, j) of the sum of the two contractions: row r of x against the quantized row j of the input
  weight, plus row r of h against the quantized row j of the recurrent weight. -/

private theorem v12_entry (x0 x1 : (⟨S8192x4096, .f32⟩ : BufTy).Contents (Elt Ideal))
    (x2 x3 : (⟨S4096x4096, .f32⟩ : BufTy).Contents (Elt Ideal)) (h2 : AllReal x2) (h3 : AllReal x3)
    (r : Fin 8192) (j : Fin 4096) :
    val_main_v12 (F := Ideal) x0 x1 x2 x3 (ix2 r j) = preAct x0 x1 x2 x3 r j := by
  rw [val_main_v12_apply, val_main_v5_apply, val_main_v11_apply, Ideal.addf_def]
  unfold preAct
  congr 1
  · exact Finset.sum_congr rfl fun k _ => by rw [lidx_v5, ridx_v5, v4_entry x2 h2]
  · exact Finset.sum_congr rfl fun k _ => by rw [lidx_v11, ridx_v11, v10_entry x3 h3]

/-- The reference's new hidden state (its second result) at real inputs. -/
theorem hidden_eq (x0 x1 : (⟨S8192x4096, .f32⟩ : BufTy).Contents (Elt Ideal)) (x2 x3 : (⟨S4096x4096, .f32⟩ : BufTy).Contents (Elt Ideal))
    (h0 : AllReal x0) (h1 : AllReal x1) (h2 : AllReal x2) (h3 : AllReal x3) :
    val_main_v16 (F := Ideal) x0 x1 x2 x3 = Cert.Tern.hidden x0 x1 x2 x3 := by
  funext i
  obtain ⟨r, j, rfl⟩ : ∃ (r : Fin 8192) (j : Fin 4096), i = ix2 r j := ⟨i 0, i 1, eq_ix2 i⟩
  -- entry (r, j) is p + (q(p) - p) with p the pre-activation at (r, j)
  rw [val_main_v16_apply, val_main_v15_apply, val_main_v14_apply,
    val_main_call5_v4_apply, val_main_call5_v3_apply, val_main_cst_4_apply,
    val_main_call5_v2_apply, val_main_call5_v1_apply, val_main_call5_v0_apply, val_main_cst_3_apply,
    val_main_v13_apply, v12_entry x0 x1 x2 x3 h2 h3]
  simp only [Ideal.addf_def, Ideal.subf_def, Ideal.maximumf_def, Ideal.minimumf_def,
    Ideal.hostUnary_roundeven_def, Ideal.ofBits_def]
  rw [tern_def]
  -- the pre-activation of real inputs is real, so the straight-through form is the quantizer
  exact ste_eq _ (preAct_real x0 x1 h0 h1 x2 x3 r j)

/-- The reference's output (its first result) at real inputs. -/
theorem out_eq (x0 x1 : (⟨S8192x4096, .f32⟩ : BufTy).Contents (Elt Ideal)) (x2 x3 x4 : (⟨S4096x4096, .f32⟩ : BufTy).Contents (Elt Ideal))
    (h0 : AllReal x0) (h1 : AllReal x1) (h2 : AllReal x2) (h3 : AllReal x3) (h4 : AllReal x4) :
    val_main_v22 (F := Ideal) x0 x1 x2 x3 x4 = Cert.Tern.out x0 x1 x2 x3 x4 := by
  funext i
  obtain ⟨r, j, rfl⟩ : ∃ (r : Fin 8192) (j : Fin 4096), i = ix2 r j := ⟨i 0, i 1, eq_ix2 i⟩
  -- row r of the new hidden state against the quantized row j of the output weight
  rw [val_main_v22_apply, hidden_eq x0 x1 x2 x3 h0 h1 h2 h3]
  show _ = ∑ k : Fin 4096, hidden x0 x1 x2 x3 (ix2 r k) * tern (x4 (ix2 j k))
  exact Finset.sum_congr rfl fun k _ => by rw [lidx_v22, ridx_v22, v21_entry x4 h4]

end Cert.ReferenceIdeal.RefRead

end
-- ==== Proof.Finite.lean ====
/-
  The precondition, decoded: when the printed predicate "every entry of every argument is below +inf in absolute
  value" is all ones, every entry of the five arrays is a real number.
-/
import proofs.«163406_j15015205666917_1_alg».proof.Proof.Spec
import proofs.«163406_j15015205666917_1_alg».proof.Pre_finite_inputs
import Idealize.ShloMosaic.Lib.ReduceAll
import Idealize.ShloMosaic.Lib.ValueIdx

noncomputable section

open Idealize.ShloMosaic Idealize.ShloMosaic.ValueIdx

namespace Cert.Finite

open Cert.Pre_finite_inputs Cert.Tern

/-- The shape of a scalar has exactly one index: the empty tuple. -/
private instance subsingleton_scalarIdx : Subsingleton S_.Idx := ⟨fun a b => funext fun d => d.elim0⟩

/-- A one-bit word built from a decidable proposition is 1 only when the proposition holds. -/
private theorem of_ofBool_decide {p : Prop} [Decidable p] (h : BitVec.ofBool (decide p) = 1#1) : p := by
  by_contra hp
  rw [decide_eq_false hp] at h
  exact absurd h (by decide)

/-- The element fact. Over the extended reals |x| = max x (-x), and the pattern of +inf denotes ⊤. At x = ⊥ the
    absolute value is max ⊥ ⊤ = ⊤, at x = ⊤ it is max ⊤ ⊥ = ⊤, and ⊤ is not strictly below ⊤; so a strict
    comparison |x| < +inf that answers 1 leaves only the middle case, x a real number. -/
private theorem real_of_abs_lt_inf (x : EReal)
    (h : FloatOps.cmpf (F := Ideal) (φ := .f32) .olt (FloatOps.hostAbsf x) (Ideal.ofBits .f32 0x7F800000#32) = 1#1) :
    ∃ r : ℝ, x = (r : EReal) := by
  rw [ofBits_inf] at h
  have hlt : max x (-x) < (⊤ : EReal) := of_ofBool_decide h
  induction x using EReal.rec with
  | bot =>
    rw [EReal.neg_bot, max_eq_right bot_le] at hlt
    exact absurd hlt (lt_irrefl _)
  | coe r => exact ⟨r, rfl⟩
  | top =>
    rw [EReal.neg_top, max_eq_left bot_le] at hlt
    exact absurd hlt (lt_irrefl _)

/-- One `jnp.all(|a| < +inf)`, at any shape: the mask compares |a i| with the scalar +inf broadcast to the array's
    shape, and the reduction by `and` over all axes, from the constant true, lands in the one-index scalar shape.
    If that one bit is 1 then the mask is 1 at every index i, which by the element fact makes a i real. -/
private theorem allReal_of_all {s : Shape} {axes : List (Fin s.rank)} (a : FVec Ideal s .f32)
    (hb : S_.BroadcastsInDim s (![] : Fin 0 → Fin s.rank)) (hr : s.ReducesTo axes S_) (h0 : 0 < S_.numel)
    (e : Host.reduce IntOp.andi
        (cmpf .olt (Host.absf a) (broadcastInDim s ![] hb (constant (F := Ideal) S_ .f32 0x7F800000#32)))
        (constantI S_ 1 1#1) hr h0 ix0 = 1#1) :
    AllReal a := by
  intro i
  have hi := Host.reduce_andi_all _ _ hr h0 ix0 e i
  exact real_of_abs_lt_inf (a i) hi

variable [Cert.Pre_finite_inputs.Facts]

/-- If the predicate is all ones at five arrays, each of them has only real entries. -/
theorem allReal_of_fn (a0 a1 : FVec Ideal S8192x4096 .f32) (a2 a3 a4 : FVec Ideal S4096x4096 .f32)
    (h : Cert.Pre_finite_inputs.fn (F := Ideal) a0 a1 a2 a3 a4 = (fun _ => 1#1)) :
    AllReal a0 ∧ AllReal a1 ∧ AllReal a2 ∧ AllReal a3 ∧ AllReal a4 := by
  -- The result has one index; there the five one-bit answers are joined by `and`, left-nested:
  -- (((all a0 ∧ all a1) ∧ all a2) ∧ all a3) ∧ all a4.
  have h1 := congrFun h ix0
  dsimp only [fn, fn_part1] at h1
  obtain ⟨h0123, e4⟩ := IntOp.andi_eq_one.1 h1
  obtain ⟨h012, e3⟩ := IntOp.andi_eq_one.1 h0123
  obtain ⟨h01, e2⟩ := IntOp.andi_eq_one.1 h012
  obtain ⟨e0, e1⟩ := IntOp.andi_eq_one.1 h01
  exact ⟨allReal_of_all a0 _ _ _ e0, allReal_of_all a1 _ _ _ e1, allReal_of_all a2 _ _ _ e2,
    allReal_of_all a3 _ _ _ e3, allReal_of_all a4 _ _ _ e4⟩

end Cert.Finite

end
-- ==== Proof.lean ====
/-
  Equivalence, over the extended reals, of a two-kernel ternary recurrent step and its plain reference.

  Both compute, with q(w) = clip(round-half-even(w), -1, 1),
    hidden[r, j] = q( sum_k x[r, k] q(Wi[j, k]) + sum_k h[r, k] q(Wh[j, k]) ),
    out[r, j]    = sum_k hidden[r, k] q(Wo[j, k]).
  The kernels cut each sum over k into 32 blocks of 128 columns accumulated in the result block across the second
  grid axis (zeroed at the first block, quantized in place after the last in the first kernel); the reference takes
  the sums whole and spells q in its straight-through form w + (q(w) - w). The two agree because a sum over the
  extended reals may be regrouped freely, and because at a real w the straight-through form is q(w): the inputs are
  real by the precondition, and the pre-activation of real inputs is real. The ideal pass rewrote nothing, so the
  idealization's own claim is empty.
-/
import proofs.«163406_j15015205666917_1_alg».proof.Defs
import proofs.«163406_j15015205666917_1_alg».proof.Proof.Gen.Kernel
import proofs.«163406_j15015205666917_1_alg».proof.Proof.Gen.Kernel.Frame
import proofs.«163406_j15015205666917_1_alg».proof.Proof.Gen.KernelIdeal
import proofs.«163406_j15015205666917_1_alg».proof.Proof.Gen.KernelIdeal.Frame
import proofs.«163406_j15015205666917_1_alg».proof.Proof.Gen.ReferenceIdeal
import proofs.«163406_j15015205666917_1_alg».proof.Proof.Gen.ReferenceIdeal.Run
import proofs.«163406_j15015205666917_1_alg».proof.Proof.Gen.ReferenceIdeal.Read
import proofs.«163406_j15015205666917_1_alg».proof.Proof.Gen.Pre_finite_inputs
import proofs.«163406_j15015205666917_1_alg».proof.Proof.Spec
import proofs.«163406_j15015205666917_1_alg».proof.Proof.KernelValue
import proofs.«163406_j15015205666917_1_alg».proof.Proof.RefRead
import proofs.«163406_j15015205666917_1_alg».proof.Proof.Finite
import Idealize.ShloMosaic.Adequacy
import Idealize.ShloMosaic.Init

noncomputable section

namespace Cert.Proof

open Idealize.ShloMosaic Idealize.ShloMosaic.TcCoe Idealize.SL.Sem

/-- The word-level kernel program runs and keeps its arguments: the generated frame. -/
theorem frame_k : @Cert.frame_Kernel Cert.Kernel.Gen.facts Cert.Pre_finite_inputs.Gen.facts :=
  fun m ρ _ => Cert.Kernel.Gen.frame m ρ

/-- So does its idealization. -/
theorem frame_ki : @Cert.frame_KernelIdeal Cert.KernelIdeal.Gen.facts Cert.Pre_finite_inputs.Gen.facts :=
  fun m ρ _ => Cert.KernelIdeal.Gen.frame m ρ

/-- The reference is a host program: its generated run, the results dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2.2)
    (Cert.ReferenceIdeal.Value.run (F := Ideal) m ρ)

/-- From memories that agree on five real-valued arguments both programs end with the step's two arrays of them. -/
theorem algebraic : @Cert.algebraic_KernelIdeal_ReferenceIdeal Cert.KernelIdeal.Gen.facts Cert.ReferenceIdeal.Gen.facts
    Cert.Pre_finite_inputs.Gen.facts := by
  intro m ρ m' ρ' hpre hagree
  refine ⟨_, _, Cert.KernelIdeal.KernelValue.run m ρ, ?_⟩
  refine (θ_run Cert.ReferenceIdeal.defs _ _).mono (fun _ h c => ?_) (Cert.ReferenceIdeal.Value.run (F := Ideal) m' ρ')
  obtain ⟨r0, r1, r2, r3, r4⟩ := Cert.Finite.allReal_of_fn _ _ _ _ _ (hpre c)
  obtain ⟨e0, e1, e2, e3, e4⟩ := hagree c
  refine ⟨(h c).1.trans ?_, (h c).2.1.trans ?_, (h c).2.2⟩
  · rw [Cert.ReferenceIdeal.Read.val_main_v22_eq, e0, e1, e2, e3, e4]
    exact Cert.ReferenceIdeal.RefRead.out_eq _ _ _ _ _ r0 r1 r2 r3 r4
  · rw [Cert.ReferenceIdeal.Read.val_main_v16_eq, e0, e1, e2, e3]
    exact Cert.ReferenceIdeal.RefRead.hidden_eq _ _ _ _ r0 r1 r2 r3

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
